-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x256 : Shape := ⟨2, ![10000, 256]⟩
abbrev S10000x10000 : Shape := ⟨2, ![10000, 10000]⟩
abbrev S256x256 : Shape := ⟨2, ![256, 256]⟩
abbrev S256 : Shape := ⟨1, ![256]⟩
abbrev S_ : Shape := ⟨0, ![]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256x256 .f32) (main_arg5 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  main_v28

def fn {F : FTy → Type} [FloatOps F] (main_arg0 : FVec F S10000x256 .f32) (main_arg1 : FVec F S10000x10000 .f32) (main_arg2 : FVec F S256x256 .f32) (main_arg3 : FVec F S256 .f32) (main_arg4 : FVec F S256x256 .f32) (main_arg5 : FVec F S256 .f32) : IVec S_ 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_v13 main_v16
-- ==== Kernel.lean ====
abbrev S10000x256 : Shape := ⟨2, ![10000, 256]⟩
abbrev S10000x10000 : Shape := ⟨2, ![10000, 10000]⟩
abbrev S256x256 : Shape := ⟨2, ![256, 256]⟩
abbrev S256 : Shape := ⟨1, ![256]⟩
abbrev S1x256 : Shape := ⟨2, ![1, 256]⟩
abbrev S400x10000 : Shape := ⟨2, ![400, 10000]⟩
abbrev S400x256 : Shape := ⟨2, ![400, 256]⟩

abbrev nBuf : Space → Nat
  | .hbm => 10
  | .vmem => 15
  | .smem => 0
  | _ => 0

abbrev bufTy : (tb : Table) → Fin (tcTables nBuf tb) → BufTy
  | .hbm, ⟨0, _⟩ => ⟨S10000x256, .f32⟩
  | .hbm, ⟨1, _⟩ => ⟨S10000x10000, .f32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S1x256, .f32⟩
  | .hbm, ⟨7, _⟩ => ⟨S1x256, .f32⟩
  | .hbm, ⟨8, _⟩ => ⟨S10000x256, .f32⟩
  | .hbm, ⟨9, _⟩ => ⟨S10000x256, .f32⟩
  | .local _ .vmem, ⟨0, _⟩ => ⟨S10000x256, .f32⟩
  | .local _ .vmem, ⟨1, _⟩ => ⟨S400x10000, .f32⟩
  | .local _ .vmem, ⟨2, _⟩ => ⟨S400x10000, .f32⟩
  | .local _ .vmem, ⟨3, _⟩ => ⟨S256x256, .f32⟩
  | .local _ .vmem, ⟨4, _⟩ => ⟨S1x256, .f32⟩
  | .local _ .vmem, ⟨5, _⟩ => ⟨S256x256, .f32⟩
  | .local _ .vmem, ⟨6, _⟩ => ⟨S1x256, .f32⟩
  | .local _ .vmem, ⟨7, _⟩ => ⟨S400x256, .f32⟩
  | .local _ .vmem, ⟨8, _⟩ => ⟨S400x256, .f32⟩
  | .local _ .vmem, ⟨9, _⟩ => ⟨S10000x256, .f32⟩
  | .local _ .vmem, ⟨10, _⟩ => ⟨S400x10000, .f32⟩
  | .local _ .vmem, ⟨11, _⟩ => ⟨S400x10000, .f32⟩
  | .local _ .vmem, ⟨12, _⟩ => ⟨S10000x256, .f32⟩
  | .local _ .vmem, ⟨13, _⟩ => ⟨S400x256, .f32⟩
  | .local _ .vmem, ⟨14, _⟩ => ⟨S400x256, .f32⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg2_1 : Ref sig .tc := ⟨.vmem, 14, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem2_1 : DmaSem sig := 13

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S400x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S400x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S400x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  shapeCasts_S256_S1x256 : S256.ShapeCasts S1x256
  inb_S10000x256_S10000x256_0_0 : ∀ a, (![0, 0] : Fin 2 → Nat) a + S10000x256.size a ≤ S10000x256.size a
  h_S10000x256 : 0 < S10000x256.numel
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S10000x256 : S1x256.Broadcasts S10000x256
  shapeCasts_S10000x256_S10000x256 : S10000x256.ShapeCasts S10000x256
  inb_S400x10000_S400x10000_0_0 : ∀ a, (![0, 0] : Fin 2 → Nat) a + S400x10000.size a ≤ S400x10000.size a
  h_S400x10000 : 0 < S400x10000.numel
  broadcasts_S1x256_S400x256 : S1x256.Broadcasts S400x256
  inb_S400x256_S400x256_0_0 : ∀ a, (![0, 0] : Fin 2 → Nat) a + S400x256.size a ≤ S400x256.size a
  h_S400x256 : 0 < S400x256.numel
  dot_S10000x256_S256x256_S10000x256_1_0_0_1_n_n_wf : DotDims.WF S10000x256 S256x256 S10000x256 [1] [0] [0] [1] [] []
  dot_S400x10000_S10000x256_S400x256_1_0_0_1_n_n_wf : DotDims.WF S400x10000 S10000x256 S400x256 [1] [0] [0] [1] [] []
  dot_S400x256_S256x256_S400x256_1_0_0_1_n_n_wf : DotDims.WF S400x256 S256x256 S400x256 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x256.size a ≤ S10000x256.size a
  hwx0_0 : ∀ i : grid0.Coords, EltTy.bits .f32 = 32 ∨ (Rect.block (s := S10000x256) S10000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S400x10000.size a ≤ S10000x10000.size a
  hwx0_1 : ∀ i : grid0.Coords, EltTy.bits .f32 = 32 ∨ (Rect.block (s := S10000x10000) S400x10000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .f32 = 32 ∨ (Rect.block (s := S256x256) S256x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S400x256.size a ≤ S10000x256.size a
  hwx0_6 : ∀ i : grid0.Coords, EltTy.bits .f32 = 32 ∨ (Rect.block (s := S10000x256) S400x256.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x256.size a ≤ S10000x256.size a
  hwx1_1 : ∀ i : grid1.Coords, EltTy.bits .f32 = 32 ∨ (Rect.block (s := S10000x256) S10000x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S400x256.size a ≤ S10000x256.size a
  hwx1_2 : ∀ i : grid1.Coords, EltTy.bits .f32 = 32 ∨ (Rect.block (s := S10000x256) S400x256.size (cc1_transform_2 i) (hinb1_2 i)).WholeWords (EltTy.packing .f32)

variable [Facts₀]

def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf
def dot_S400x10000_S10000x256_S400x256_1_0_0_1_n_n : DotDims S400x10000 S10000x256 S400x256 where
  lhsContracting := [1]
  rhsContracting := [0]
  lhsNonContracting := [0]
  rhsNonContracting := [1]
  lhsBatch := []
  rhsBatch := []
  wf := dot_S400x10000_S10000x256_S400x256_1_0_0_1_n_n_wf
def dot_S400x256_S256x256_S400x256_1_0_0_1_n_n : DotDims S400x256 S256x256 S400x256 where
  lhsContracting := [1]
  rhsContracting := [0]
  lhsNonContracting := [0]
  rhsNonContracting := [1]
  lhsBatch := []
  rhsBatch := []
  wf := dot_S400x256_S256x256_S400x256_1_0_0_1_n_n_wf

abbrev win0_0 : Pipeline.Window sig grid0 :=
  Pipeline.Window.ofSpec (Memref.whole main_arg0) S10000x256.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S400x10000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S400x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg1) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S10000x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v3) S400x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S10000x256 : Shape := ⟨2, ![10000, 256]⟩
abbrev S10000x10000 : Shape := ⟨2, ![10000, 10000]⟩
abbrev S256x256 : Shape := ⟨2, ![256, 256]⟩
abbrev S256 : Shape := ⟨1, ![256]⟩
abbrev S1x256 : Shape := ⟨2, ![1, 256]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S10000x256, .f32⟩
  | .hbm, ⟨1, _⟩ => ⟨S10000x10000, .f32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S10000x256, .f32⟩
  | .hbm, ⟨7, _⟩ => ⟨S1x256, .f32⟩
  | .hbm, ⟨8, _⟩ => ⟨S10000x256, .f32⟩
  | .hbm, ⟨9, _⟩ => ⟨S10000x256, .f32⟩
  | .hbm, ⟨10, _⟩ => ⟨S10000x256, .f32⟩
  | .hbm, ⟨11, _⟩ => ⟨S_, .f32⟩
  | .hbm, ⟨12, _⟩ => ⟨S10000x256, .f32⟩
  | .hbm, ⟨13, _⟩ => ⟨S10000x256, .f32⟩
  | .hbm, ⟨14, _⟩ => ⟨S10000x256, .f32⟩
  | .hbm, ⟨15, _⟩ => ⟨S1x256, .f32⟩
  | .hbm, ⟨16, _⟩ => ⟨S10000x256, .f32⟩
  | .hbm, ⟨17, _⟩ => ⟨S10000x256, .f32⟩
  | .hbm, ⟨18, _⟩ => ⟨S10000x256, .f32⟩
  | .hbm, ⟨19, _⟩ => ⟨S_, .f32⟩
  | .hbm, ⟨20, _⟩ => ⟨S10000x256, .f32⟩
  | .hbm, ⟨21, _⟩ => ⟨S10000x256, .f32⟩
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  bcast_S_S10000x256 : S_.BroadcastsInDim S10000x256 (![] : Fin 0 → Fin S10000x256.rank)
  dot_S10000x256_S256x256_S10000x256_1_0_0_1_n_n_wf : DotDims.WF S10000x256 S256x256 S10000x256 [1] [0] [0] [1] [] []
  dot_S10000x10000_S10000x256_S10000x256_1_0_0_1_n_n_wf : DotDims.WF S10000x10000 S10000x256 S10000x256 [1] [0] [0] [1] [] []

variable [Facts₀]

def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf
def dot_S10000x10000_S10000x256_S10000x256_1_0_0_1_n_n : DotDims S10000x10000 S10000x256 S10000x256 where
  lhsContracting := [1]
  rhsContracting := [0]
  lhsNonContracting := [0]
  rhsNonContracting := [1]
  lhsBatch := []
  rhsBatch := []
  wf := dot_S10000x10000_S10000x256_S10000x256_1_0_0_1_n_n_wf

class Facts : Prop extends Facts₀ where

variable [Facts]
-- ==== Proof.K.Terms.lean ====
/-
  What the two kernel bodies store, as functions of the blocks they load.

  Layer 1 keeps the hidden activations `x · W1 + b1` in a scratch buffer: the first grid point computes them from the
  whole arrays `x`, `W1` and the row `b1` and stores them; every point then multiplies its band of 400 rows of the
  adjacency matrix by them, clamps at zero, multiplies by `W2` and adds the row `b2`. Layer 2 multiplies the same band
  by the first layer's whole result and clamps at zero. Each body writes its buffer by ONE store over the whole
  buffer, so what a buffer holds afterwards is the canonical reading of that one piece.
-/
import proofs.«166435_g12077448036904_cont_main3_85_3_alg».proof.Proof.Gen.Kernel.Skeleton
import proofs.«166435_g12077448036904_cont_main3_85_3_alg».proof.Proof.Gen.Kernel.Launch
import proofs.«166435_g12077448036904_cont_main3_85_3_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The whole-buffer rectangles the bodies load and store through -/

abbrev rX : Rect S10000x256 := Rect.unit (s := S10000x256) ![0, 0] S10000x256.size inb_S10000x256_S10000x256_0_0
abbrev rA : Rect S400x10000 := Rect.unit (s := S400x10000) ![0, 0] S400x10000.size inb_S400x10000_S400x10000_0_0
abbrev rW : Rect S256x256 := Rect.unit (s := S256x256) ![0, 0] S256x256.size inb_S256x256_S256x256_0_0
abbrev rB : Rect S1x256 := Rect.unit (s := S1x256) ![0, 0] S1x256.size inb_S1x256_S1x256_0_0
abbrev rO : Rect S400x256 := Rect.unit (s := S400x256) ![0, 0] S400x256.size inb_S400x256_S400x256_0_0

/-! ## What each store leaves -/

/-- The hidden activations as the first point of layer 1 leaves them in the scratch buffer. -/
def hid0 (x : Vec F S10000x256 .f32) (w1 : Vec F S256x256 .f32) (b1 : Vec F S1x256 .f32) : Vec F S10000x256 .f32 :=
  View.canon [⟨rX, k0_pay1 (View.ld x rX) (View.ld w1 rW) (View.ld b1 rB)⟩]

/-- The band of layer 1's result a point leaves in its output buffer, from the adjacency band, the hidden activations,
    `W2` and the row `b2`. -/
def band0 (a : Vec F S400x10000 .f32) (h : Vec F S10000x256 .f32) (w2 : Vec F S256x256 .f32) (b2 : Vec F S1x256 .f32) : Vec F S400x256 .f32 :=
  View.canon [⟨rO, k0_pay2 (View.ld a rA) (View.ld h rX) (View.ld w2 rW) (View.ld b2 rB)⟩]

/-- The band of layer 2's result a point leaves in its output buffer, from the adjacency band and layer 1's whole result. -/
def band1 (a : Vec F S400x10000 .f32) (h : Vec F S10000x256 .f32) : Vec F S400x256 .f32 :=
  View.canon [⟨rO, k1_pay1 (View.ld a rA) (View.ld h rX)⟩]

/-- One whole-buffer store covers its buffer. -/
theorem coverX (p0 : Vec F S10000x256 .f32) (y : S10000x256.Idx) :
    ∃ pc ∈ ([⟨rX, p0⟩] : List (View.Piece (Elt F) S10000x256 .f32)), y ∈ pc.1.set :=
  View.cover_of_tiled [⟨rX, p0⟩] S10000x256.size (by rfl) y
theorem coverO (p0 : Vec F S400x256 .f32) (y : S400x256.Idx) :
    ∃ pc ∈ ([⟨rO, p0⟩] : List (View.Piece (Elt F) S400x256 .f32)), y ∈ pc.1.set :=
  View.cover_of_tiled [⟨rO, p0⟩] S400x256.size (by rfl) y

/-! ## The branch of layer 1's body -/

/-- The condition of the body's one conditional, a word chain over the grid coordinate: "this is the first point". -/
abbrev cond0 (i : grid0.Coords) : Prop :=
  (Scalar.cmpi .ne (Scalar.extui (Scalar.cmpi .eq (BitVec.ofNat 32 (i 0).val) 0#32)) 0#32) = 1#1

/-- It holds at the first point of the grid and at no other: decided over the 25 points. -/
theorem hcond0 : ∀ t : Fin cfg0.N, cond0 (grid0.coords t) ↔ t.val = 0 :=
  (by decide +kernel : ∀ t : Fin grid0.N, cond0 (grid0.coords t) ↔ t.val = 0)

end Cert.Kernel.Hand

end
-- ==== Proof.K.Body0.lean ====
/-
  Layer 1's kernel body as two triples, one per case of its conditional.

  At the first grid point the body computes the hidden activations `x · W1 + b1` from the whole arrays and stores them
  over the scratch buffer, whatever it held; at a later point the branch is skipped and the scratch buffer is taken at
  the contents `h` it is found with. Either way the body then loads its band of the adjacency matrix, the scratch
  buffer, `W2` and the row `b2`, and stores the band `relu(a · h) · W2 + b2` over its whole output buffer; the six
  input buffers are left as found.
-/
import proofs.«166435_g12077448036904_cont_main3_85_3_alg».proof.Proof.K.Terms

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 2000000 in
/-- The first point: the scratch buffer at anything; it ends at the hidden activations and the output at their band. -/
theorem sound_kernel0_first (c : Dev nD) (E : Set ℕ) (i : grid0.Coords) (hc : cond0 i)
    (arg1 : Memref sig .tc .vmem S10000x256 .f32) (harg1 : arg1.IsWhole) (arg2 : Memref sig .tc .vmem S400x10000 .f32) (harg2 : arg2.IsWhole)
    (arg3 : Memref sig .tc .vmem S256x256 .f32) (harg3 : arg3.IsWhole) (arg4 : Memref sig .tc .vmem S1x256 .f32) (harg4 : arg4.IsWhole)
    (arg5 : Memref sig .tc .vmem S256x256 .f32) (harg5 : arg5.IsWhole) (arg6 : Memref sig .tc .vmem S1x256 .f32) (harg6 : arg6.IsWhole)
    (arg7 : Memref sig .tc .vmem S400x256 .f32) (harg7 : arg7.IsWhole) (arg8 : Memref sig .tc .vmem S10000x256 .f32) (harg8 : arg8.IsWhole)
    (x : Vec F S10000x256 .f32) (a : Vec F S400x10000 .f32) (w1 : Vec F S256x256 .f32) (b1 : Vec F S1x256 .f32)
    (w2 : Vec F S256x256 .f32) (b2 : Vec F S1x256 .f32) (K : PUnit → sProp 𝕄) :
    iprop(owns (c : Thread nD τ) arg1 fullShare x ∗ owns (c : Thread nD τ) arg2 fullShare a ∗ owns (c : Thread nD τ) arg3 fullShare w1
        ∗ owns (c : Thread nD τ) arg4 fullShare b1 ∗ owns (c : Thread nD τ) arg5 fullShare w2 ∗ owns (c : Thread nD τ) arg6 fullShare b2
        ∗ (∃ d, owns (c : Thread nD τ) arg7 fullShare d) ∗ (∃ d, owns (c : Thread nD τ) arg8 fullShare d)
        ∗ (iprop(owns (c : Thread nD τ) arg1 fullShare x ∗ owns (c : Thread nD τ) arg2 fullShare a ∗ owns (c : Thread nD τ) arg3 fullShare w1
            ∗ owns (c : Thread nD τ) arg4 fullShare b1 ∗ owns (c : Thread nD τ) arg5 fullShare w2 ∗ owns (c : Thread nD τ) arg6 fullShare b2
            ∗ owns (c : Thread nD τ) arg7 fullShare (band0 a (hid0 x w1 b1) w2 b2) ∗ owns (c : Thread nD τ) arg8 fullShare (hid0 x w1 b1)) -∗ K ⟨⟩))
      ⊢ wp frame (wpE (defs₀ (F := F)) Variants.none c none) E
          (cc0__layer1_kernel i arg1 harg1 arg2 harg2 arg3 harg3 arg4 harg4 arg5 harg5 arg6 harg6 arg7 harg7 arg8 harg8) K := by
  simp only [cc0__layer1_kernel_eq_skeleton]; unfold cc0__layer1_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf1 hf2 hf3 hf4 hf5 hf6
  sl_exec (disch := exact hc)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    sl_unfold_words
    rw [View.read_writes_eq_canon _ _ _ (coverO _), View.readCov_eq_canon_ld _ _ _ (coverX _)]
    rfl
  · iexists _; isplitr
    swap; · iexact H8
    ipureintro
    sl_unfold_words
    exact View.read_writes_eq_canon _ _ _ (coverX _)

set_option maxHeartbeats 2000000 in
/-- A later point: the scratch buffer is found at `h` and left there; the output ends at the band computed from `h`. -/
theorem sound_kernel0_later (c : Dev nD) (E : Set ℕ) (i : grid0.Coords) (hc : ¬cond0 i)
    (arg1 : Memref sig .tc .vmem S10000x256 .f32) (harg1 : arg1.IsWhole) (arg2 : Memref sig .tc .vmem S400x10000 .f32) (harg2 : arg2.IsWhole)
    (arg3 : Memref sig .tc .vmem S256x256 .f32) (harg3 : arg3.IsWhole) (arg4 : Memref sig .tc .vmem S1x256 .f32) (harg4 : arg4.IsWhole)
    (arg5 : Memref sig .tc .vmem S256x256 .f32) (harg5 : arg5.IsWhole) (arg6 : Memref sig .tc .vmem S1x256 .f32) (harg6 : arg6.IsWhole)
    (arg7 : Memref sig .tc .vmem S400x256 .f32) (harg7 : arg7.IsWhole) (arg8 : Memref sig .tc .vmem S10000x256 .f32) (harg8 : arg8.IsWhole)
    (x : Vec F S10000x256 .f32) (a : Vec F S400x10000 .f32) (w1 : Vec F S256x256 .f32) (b1 : Vec F S1x256 .f32)
    (w2 : Vec F S256x256 .f32) (b2 : Vec F S1x256 .f32) (h : Vec F S10000x256 .f32) (K : PUnit → sProp 𝕄) :
    iprop(owns (c : Thread nD τ) arg1 fullShare x ∗ owns (c : Thread nD τ) arg2 fullShare a ∗ owns (c : Thread nD τ) arg3 fullShare w1
        ∗ owns (c : Thread nD τ) arg4 fullShare b1 ∗ owns (c : Thread nD τ) arg5 fullShare w2 ∗ owns (c : Thread nD τ) arg6 fullShare b2
        ∗ (∃ d, owns (c : Thread nD τ) arg7 fullShare d) ∗ owns (c : Thread nD τ) arg8 fullShare h
        ∗ (iprop(owns (c : Thread nD τ) arg1 fullShare x ∗ owns (c : Thread nD τ) arg2 fullShare a ∗ owns (c : Thread nD τ) arg3 fullShare w1
            ∗ owns (c : Thread nD τ) arg4 fullShare b1 ∗ owns (c : Thread nD τ) arg5 fullShare w2 ∗ owns (c : Thread nD τ) arg6 fullShare b2
            ∗ owns (c : Thread nD τ) arg7 fullShare (band0 a h w2 b2) ∗ owns (c : Thread nD τ) arg8 fullShare h) -∗ K ⟨⟩))
      ⊢ wp frame (wpE (defs₀ (F := F)) Variants.none c none) E
          (cc0__layer1_kernel i arg1 harg1 arg2 harg2 arg3 harg3 arg4 harg4 arg5 harg5 arg6 harg6 arg7 harg7 arg8 harg8) K := by
  simp only [cc0__layer1_kernel_eq_skeleton]; unfold cc0__layer1_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, Hk⟩
  subst hf1 hf2 hf3 hf4 hf5 hf6 hf8
  sl_exec (disch := exact hc)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (coverO _)
  · iexists f8; isplitr; · ipureintro; rfl
    iexact H8

end Cert.Kernel.Hand

end
-- ==== Proof.K.Dat0.lean ====
/-
  Layer 1's pallas_call: what its windows' buffers and its scratch buffer hold point by point.

  The region has 25 points. Windows 0, 2, 3, 4, 5 are the whole arrays `x`, `W1`, the row `b1`, `W2` and the row
  `b2`, fetched once at the first point and left in place; window 1 is the band of 400 rows of the adjacency matrix at
  the point; window 6 the band of 400 rows of the result, written back at every point. The body keeps the hidden
  activations in a scratch buffer of its own between points: whatever it holds before the first point, after every
  point it holds `hid0` of the whole arrays `x`, `W1`, `b1` — the same value at every point, since those windows'
  blocks do not move. So the region's invariant is, before the first point, the scoped buffers no window stages at
  anything, and after any point the scratch buffer at that value beside the others at anything; and the output's
  buffer after point `t` is `band0` of the point's adjacency band, that value, `W2` and `b2`.
-/
import proofs.«166435_g12077448036904_cont_main3_85_3_alg».proof.Proof.K.Body0

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current buffer holds its block at every point, fetched there or not: where it is not fetched
    its block index has not moved and the body left the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- The first point of the grid. -/
abbrev t0 : Fin cfg0.N := ⟨0, by decide⟩

/-- The hidden activations, of the whole arrays `x`, `W1` and `b1` as the region finds them. -/
def hidV (c : Dev nD) : Vec F S10000x256 .f32 := hid0 (iblk0 V c 0 t0) (iblk0 V c 2 t0) (iblk0 V c 3 t0)

/-- The scratch buffer as the memref the body is called with. -/
abbrev scM : Memref sig .tc .vmem S10000x256 .f32 := Memref.whole cc0_scratch0

/-- The other scoped buffers no window of this region stages (layer 2's staging buffers), each whole at some contents. -/
def others (c : Dev nD) : sProp 𝕄 :=
  iprop((∃ f : Buf (Elt F) ((c : Thread nD τ).loc cc1_stg0_0), ((c : Thread nD τ).loc cc1_stg0_0) ↦{fullShare} f)
      ∗ (∃ f : Buf (Elt F) ((c : Thread nD τ).loc cc1_stg0_1), ((c : Thread nD τ).loc cc1_stg0_1) ↦{fullShare} f)
      ∗ (∃ f : Buf (Elt F) ((c : Thread nD τ).loc cc1_stg1_0), ((c : Thread nD τ).loc cc1_stg1_0) ↦{fullShare} f)
      ∗ (∃ f : Buf (Elt F) ((c : Thread nD τ).loc cc1_stg2_0), ((c : Thread nD τ).loc cc1_stg2_0) ↦{fullShare} f)
      ∗ (∃ f : Buf (Elt F) ((c : Thread nD τ).loc cc1_stg2_1), ((c : Thread nD τ).loc cc1_stg2_1) ↦{fullShare} f))

/-- The scoped buffers no window stages, the scratch buffer first and as a memref owned at some contents. -/
theorem PhiA0_eq (c : Dev nD) :
    (Pipeline.ΦA spec0 c : sProp 𝕄)
      = iprop(((∃ d, owns (c : Thread nD τ) scM fullShare d) ∗ others (F := F) c) ∗ (∃ r, prngReg c r)) := by
  unfold Pipeline.ΦA others; rw [scopedRest0_eq]; simp only [scM, owns_whole]; rfl

/-- The region's invariant before position `n`. -/
def PhiS (c : Dev nD) : ℕ → sProp 𝕄
  | 0 => Pipeline.ΦA spec0 c
  | _ + 1 => iprop((owns (c : Thread nD τ) scM fullShare (hidV V c) ∗ others (F := F) c) ∗ (∃ r, prngReg c r))

theorem PhiS_pos (c : Dev nD) (n : ℕ) (hn : n ≠ 0) :
    PhiS V c n = iprop((owns (c : Thread nD τ) scM fullShare (hidV V c) ∗ others (F := F) c) ∗ (∃ r, prngReg c r)) := by
  cases n with
  | zero => exact absurd rfl hn
  | succ n => rfl

/-- The proof data of the region on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => band0 (iblk0 V c 1 t) (hidV V c) (iblk0 V c 4 t) (iblk0 V c 5 t)
  Φ t := PhiS V c t.val
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) :
    (dat0 V c).after 6 t = band0 (iblk0 V c 1 t) (hidV V c) (iblk0 V c 4 t) (iblk0 V c 5 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

set_option maxHeartbeats 2000000 in
/-- The body at any point. At the first point the invariant hands it the scratch buffer at anything and takes it back at
    the hidden activations; at a later point it hands the scratch buffer at them and takes it back unchanged. The inputs'
    buffers hold their blocks, so the case's triple applies. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).owesAt () t.succ = (dat0 V c).owesAt () t.castSucc from rfl,
    show (dat0 V c).Φ t.succ = PhiS V c (t.val + 1) from rfl,
    show (dat0 V c).Φ t.castSucc = PhiS V c t.val from rfl,
    after0_0, after0_1, after0_2, after0_3, after0_4, after0_5, after0_6]
  rw [show PhiS V c (t.val + 1) = iprop((owns (c : Thread nD τ) scM fullShare (hidV V c) ∗ others (F := F) c) ∗ (∃ r, prngReg c r)) from rfl]
  by_cases hz : t.val = 0
  · obtain rfl : t = t0 := Fin.ext hz
    rw [show PhiS V c (t0 : Fin cfg0.N).val = Pipeline.ΦA spec0 c from rfl, PhiA0_eq]
    iintro ⟨⟨⟨HS, Hoth⟩, Hg⟩, Ho, ⟨%d0, H0⟩, ⟨%d1, H1⟩, ⟨%d2, H2⟩, ⟨%d3, H3⟩, ⟨%d4, H4⟩, ⟨%d5, H5⟩, ⟨%d6, H6⟩⟩
    iapply (sound_kernel0_first c Set.univ _ ((hcond0 t0).mpr rfl) _ _ _ _ _ _ _ _ _ _ _ _ _ _ _ _
      (iblk0 V c 0 t0) (iblk0 V c 1 t0) (iblk0 V c 2 t0) (iblk0 V c 3 t0) (iblk0 V c 4 t0) (iblk0 V c 5 t0) _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS]; · iexact HS
    iintro ⟨H0, H1, H2, H3, H4, H5, H6, HS⟩
    isplitl [HS Hoth Hg]
    · isplitl [HS Hoth]
      · isplitl [HS]; · iexact HS
        iexact Hoth
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [PhiS_pos V c _ hz]
    iintro ⟨⟨⟨HS, Hoth⟩, Hg⟩, Ho, ⟨%d0, H0⟩, ⟨%d1, H1⟩, ⟨%d2, H2⟩, ⟨%d3, H3⟩, ⟨%d4, H4⟩, ⟨%d5, H5⟩, ⟨%d6, H6⟩⟩
    iapply (sound_kernel0_later c Set.univ _ (fun h => hz ((hcond0 t).mp h)) _ _ _ _ _ _ _ _ _ _ _ _ _ _ _ _
      (iblk0 V c 0 t) (iblk0 V c 1 t) (iblk0 V c 2 t) (iblk0 V c 3 t) (iblk0 V c 4 t) (iblk0 V c 5 t) (hidV V c) _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS]; · iexact HS
    iintro ⟨H0, H1, H2, H3, H4, H5, H6, HS⟩
    isplitl [HS Hoth Hg]
    · isplitl [HS Hoth]
      · isplitl [HS]; · iexact HS
        iexact Hoth
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The region's body obligation, at every point. -/
theorem body_obligation0 (c : Dev nD) : BodyObligation (dat0 (F := F) V c) (defs₀ (F := F)) Variants.none () Set.univ := fun t => by
  rw [bigSep_W0, bigSep_W0]
  exact sound_body0 V c t

/-- What the region is handed, the scoped buffers no window stages at anything, is the invariant before the first point. -/
theorem hin0 (c : Dev nD) : (Pipeline.ΦA spec0 c : sProp 𝕄) ⊢ (dat0 V c).Φ 0 := .rfl

/-- After the last point the invariant gives the same back: the scratch buffer's contents are forgotten. -/
theorem hout0 (c : Dev nD) : (dat0 V c).Φ (Fin.last cfg0.N) ⊢ (Pipeline.ΦA spec0 c : sProp 𝕄) := by
  rw [show (dat0 V c).Φ (Fin.last cfg0.N) = PhiS V c (Fin.last cfg0.N).val from rfl,
    PhiS_pos V c _ (by rw [Fin.val_last]; decide), PhiA0_eq]
  iintro ⟨⟨HS, Hoth⟩, Hg⟩
  isplitl [HS Hoth]
  · isplitl [HS]; · iexists _; iexact HS
    iexact Hoth
  iexact Hg

end Cert.Kernel.Hand

end
-- ==== Proof.K.Body1.lean ====
/-
  The two kernel bodies as triples.

  Layer 2's body loads its band of the adjacency matrix and layer 1's whole result, and stores the clamped product over
  its whole output buffer. Layer 1's body has two cases, told apart by the grid coordinate: at the first point it first
  fills the scratch buffer with the hidden activations, whatever the buffer held; at every later point the scratch
  buffer already holds them and is only read. In both cases the point's output buffer ends at the band computed from
  the scratch buffer's contents, and the inputs' buffers are left as found.
-/
import proofs.«166435_g12077448036904_cont_main3_85_3_alg».proof.Proof.K.Terms

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- Layer 2's body: the inputs' buffers at `a` and `h`, the output's at anything, run to the output's at `band1 a h`. -/
theorem sound_kernel1 (c : Dev nD) (E : Set ℕ) (i : grid1.Coords)
    (arg1 : Memref sig .tc .vmem S400x10000 .f32) (harg1 : arg1.IsWhole) (arg2 : Memref sig .tc .vmem S10000x256 .f32) (harg2 : arg2.IsWhole)
    (arg3 : Memref sig .tc .vmem S400x256 .f32) (harg3 : arg3.IsWhole)
    (a : Vec F S400x10000 .f32) (h : Vec F S10000x256 .f32) (K : PUnit → sProp 𝕄) :
    iprop(owns (c : Thread nD τ) arg1 fullShare a ∗ owns (c : Thread nD τ) arg2 fullShare h ∗ (∃ d, owns (c : Thread nD τ) arg3 fullShare d)
        ∗ (iprop(owns (c : Thread nD τ) arg1 fullShare a ∗ owns (c : Thread nD τ) arg2 fullShare h ∗ owns (c : Thread nD τ) arg3 fullShare (band1 a h)) -∗ K ⟨⟩))
      ⊢ wp frame (wpE (defs₀ (F := F)) Variants.none c none) E (cc1__layer2_kernel i arg1 harg1 arg2 harg2 arg3 harg3) K := by
  simp only [cc1__layer2_kernel_eq_skeleton]; unfold cc1__layer2_kernel_skel
  unfold owns
  iintro ⟨⟨%f1, %hf1, H1⟩, ⟨%f2, %hf2, H2⟩, ⟨%d3, %f3, -, H3⟩, Hk⟩
  subst hf1 hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (coverO _)

end Cert.Kernel.Hand

end
-- ==== Proof.K.Dat1.lean ====
/-
  Layer 2's pallas_call: what its windows' buffers hold point by point.

  The region has 25 points. Window 0 is the band of 400 rows of the adjacency matrix at the point, window 1 the whole
  of layer 1's result (fetched once, at the first point, and left in place), window 2 the band of 400 rows of the
  result, written back at every point. The body leaves the two inputs as found and the output at the clamped product
  of the two, so the proof data are: each input's buffer at its block of the array as the region finds it, the output's
  at `band1` of the two blocks; the region keeps nothing of its own between points.
-/
import proofs.«166435_g12077448036904_cont_main3_85_3_alg».proof.Proof.K.Body1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current buffer holds its block at every point, fetched there or not: where it is not fetched
    its block index has not moved and the body left the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The proof data of the region on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => band1 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = band1 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' buffers hold their blocks, so the body's triple applies; the region's own
    resources pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The region's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Run.lean ====
/-
  The whole program's run: two reshapes of the bias rows on the host, then the two pallas_calls.

  Between the items core `c` holds every unscoped buffer whole at known contents: at launch the memory `m`; after the
  two reshapes the same with the two reshaped rows written; after layer 1's region the same with its result array at
  what its 25 write-backs leave (`Dat.arrAt`), every other buffer as entered; after layer 2's region the same again
  with the final result array at what its write-backs leave. Each region is entered by splitting its windows' arrays
  out of those buffers and left by putting them back; the generator register rides beside them, and nothing is ever
  owed to another core. No host operation and no region writes an argument array, so each argument ends as launched;
  the result ends at layer 2's folded write-backs, which is what the value half of the certificate reads.
-/
import proofs.«166435_g12077448036904_cont_main3_85_3_alg».proof.Proof.K.Dat0
import proofs.«166435_g12077448036904_cont_main3_85_3_alg».proof.Proof.K.Dat1
import Idealize.ShloMosaic.Lib.Pipeline.RegionsLoop
import Idealize.ShloMosaic.Lib.Pipeline.FrameSuffix

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => m ((c : Dev nD), b)
/-- After the two reshapes (layer 1's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At layer 1's exit (layer 2's entry): its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- At layer 2's exit: its arrays at what the pipeline leaves, every other buffer as entered. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-! ## The arguments end as launched, and the result at layer 2's write-backs -/

theorem W3_main_arg0 (c : Dev nD) : W3 m c (Proc.devRef .tc main_arg0) = m ((c : Thread nD τ).loc main_arg0) :=
  calc W3 m c (Proc.devRef .tc main_arg0)
    _ = W2 m c (Proc.devRef .tc main_arg0) := W3_of_ne m c main_arg0 (by decide)
    _ = W1 m c (Proc.devRef .tc main_arg0) := (W2_arr m c 0).trans (((dat0 (V1 m) c).arrAt_in 0 rfl _).trans (A_eq0 (V1 m) c 0))
    _ = W0 m c (Proc.devRef .tc main_arg0) := StableHlo.after_of_forall_not_mem (b := Proc.devRef .tc main_arg0) _ _ (List.forall_iff_forall_mem.mp (by
          simp only [hostOps0, List.Forall, StableHlo.reshape_writes, Finset.mem_singleton]
          repeat' apply And.intro
          all_goals exact StableHlo.devRef_ne_of_ne (by decide)))
    _ = m ((c : Thread nD τ).loc main_arg0) := rfl
theorem W3_main_arg1 (c : Dev nD) : W3 m c (Proc.devRef .tc main_arg1) = m ((c : Thread nD τ).loc main_arg1) :=
  calc W3 m c (Proc.devRef .tc main_arg1)
    _ = W2 m c (Proc.devRef .tc main_arg1) := (W3_arr m c 0).trans (((dat1 (V2 m) c).arrAt_in 0 rfl _).trans (A_eq1 (V2 m) c 0))
    _ = W1 m c (Proc.devRef .tc main_arg1) := (W2_arr m c 1).trans (((dat0 (V1 m) c).arrAt_in 1 rfl _).trans (A_eq0 (V1 m) c 1))
    _ = W0 m c (Proc.devRef .tc main_arg1) := StableHlo.after_of_forall_not_mem (b := Proc.devRef .tc main_arg1) _ _ (List.forall_iff_forall_mem.mp (by
          simp only [hostOps0, List.Forall, StableHlo.reshape_writes, Finset.mem_singleton]
          repeat' apply And.intro
          all_goals exact StableHlo.devRef_ne_of_ne (by decide)))
    _ = m ((c : Thread nD τ).loc main_arg1) := rfl
theorem W3_main_arg2 (c : Dev nD) : W3 m c (Proc.devRef .tc main_arg2) = m ((c : Thread nD τ).loc main_arg2) :=
  calc W3 m c (Proc.devRef .tc main_arg2)
    _ = W2 m c (Proc.devRef .tc main_arg2) := W3_of_ne m c main_arg2 (by decide)
    _ = W1 m c (Proc.devRef .tc main_arg2) := (W2_arr m c 2).trans (((dat0 (V1 m) c).arrAt_in 2 rfl _).trans (A_eq0 (V1 m) c 2))
    _ = W0 m c (Proc.devRef .tc main_arg2) := StableHlo.after_of_forall_not_mem (b := Proc.devRef .tc main_arg2) _ _ (List.forall_iff_forall_mem.mp (by
          simp only [hostOps0, List.Forall, StableHlo.reshape_writes, Finset.mem_singleton]
          repeat' apply And.intro
          all_goals exact StableHlo.devRef_ne_of_ne (by decide)))
    _ = m ((c : Thread nD τ).loc main_arg2) := rfl
theorem W3_main_arg3 (c : Dev nD) : W3 m c (Proc.devRef .tc main_arg3) = m ((c : Thread nD τ).loc main_arg3) :=
  calc W3 m c (Proc.devRef .tc main_arg3)
    _ = W2 m c (Proc.devRef .tc main_arg3) := W3_of_ne m c main_arg3 (by decide)
    _ = W1 m c (Proc.devRef .tc main_arg3) := W2_of_ne m c main_arg3 (by decide)
    _ = W0 m c (Proc.devRef .tc main_arg3) := StableHlo.after_of_forall_not_mem (b := Proc.devRef .tc main_arg3) _ _ (List.forall_iff_forall_mem.mp (by
          simp only [hostOps0, List.Forall, StableHlo.reshape_writes, Finset.mem_singleton]
          repeat' apply And.intro
          all_goals exact StableHlo.devRef_ne_of_ne (by decide)))
    _ = m ((c : Thread nD τ).loc main_arg3) := rfl
theorem W3_main_arg4 (c : Dev nD) : W3 m c (Proc.devRef .tc main_arg4) = m ((c : Thread nD τ).loc main_arg4) :=
  calc W3 m c (Proc.devRef .tc main_arg4)
    _ = W2 m c (Proc.devRef .tc main_arg4) := W3_of_ne m c main_arg4 (by decide)
    _ = W1 m c (Proc.devRef .tc main_arg4) := (W2_arr m c 4).trans (((dat0 (V1 m) c).arrAt_in 4 rfl _).trans (A_eq0 (V1 m) c 4))
    _ = W0 m c (Proc.devRef .tc main_arg4) := StableHlo.after_of_forall_not_mem (b := Proc.devRef .tc main_arg4) _ _ (List.forall_iff_forall_mem.mp (by
          simp only [hostOps0, List.Forall, StableHlo.reshape_writes, Finset.mem_singleton]
          repeat' apply And.intro
          all_goals exact StableHlo.devRef_ne_of_ne (by decide)))
    _ = m ((c : Thread nD τ).loc main_arg4) := rfl
theorem W3_main_arg5 (c : Dev nD) : W3 m c (Proc.devRef .tc main_arg5) = m ((c : Thread nD τ).loc main_arg5) :=
  calc W3 m c (Proc.devRef .tc main_arg5)
    _ = W2 m c (Proc.devRef .tc main_arg5) := W3_of_ne m c main_arg5 (by decide)
    _ = W1 m c (Proc.devRef .tc main_arg5) := W2_of_ne m c main_arg5 (by decide)
    _ = W0 m c (Proc.devRef .tc main_arg5) := StableHlo.after_of_forall_not_mem (b := Proc.devRef .tc main_arg5) _ _ (List.forall_iff_forall_mem.mp (by
          simp only [hostOps0, List.Forall, StableHlo.reshape_writes, Finset.mem_singleton]
          repeat' apply And.intro
          all_goals exact StableHlo.devRef_ne_of_ne (by decide)))
    _ = m ((c : Thread nD τ).loc main_arg5) := rfl

theorem W3_main_v3 (c : Dev nD) : W3 m c (Proc.devRef .tc main_v3) = (dat1 (V2 m) c).arrAt 2 cfg1.N :=
  W3_arr m c 2

/-! ## The proof data family and the thread state -/

abbrev adm : (p : Fin 2) → (pcfgs (F := F) p).Adm := fun p => (cfgs p).toPCfg_adm
/-- Both pipelines' proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
/-- What rides beside the buffers through every item: the generator register at some state and nothing owed. -/
abbrev R (c : Dev nD) : sProp 𝕄 := iprop((∃ r, prngReg c r) ∗ ∃ W, owes (c : Thread nD τ) (0 : CellTallies nD τ sig Unit) W)
theorem hostOps0_fresh : (hostOps0 : List (HloOp τ sig (Elt F))).Forall fun op => op.fresh = ∅ := by
  simp only [List.Forall]; repeat' constructor
/-- The two reshapes as a segment over the unscoped buffers from the launch contents. -/
abbrev hseg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (W0 m) R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last boundary's contents. -/
abbrev Tₙ (c : Dev nD) : sProp 𝕄 := iprop(StableHlo.held (c : Thread nD τ) (Pipeline.ucRefs τ sig) (W3 m c) ∗ ∃ r, prngReg c r)

/-! ## The regions as segments -/

set_option backward.isDefEq.respectTransparency.types false in
/-- Layer 1's region: entered from the buffers after the reshapes, left with its result array written. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m 0 c).Φ (Fin.last _) ⊢ (Pipeline.ΦA spec0 c : sProp 𝕄) from hout0 (V1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Layer 2's region: entered from what layer 1's left, left at the final contents. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m 1 c).Φ (Fin.last _) ⊢ (Pipeline.ΦA spec1 c : sProp 𝕄) from .rfl).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The run -/

abbrev segs : List (Pipeline.Seg (pcfgs (F := F)) adm (pdats m) () defs₀ 𝒱₀ L lv) :=
  [ .host (hseg0 m), .region (reg0 m), .region (reg1 m) ]

theorem main_run (c : Dev nD) : main (F := F) c = Pipeline.Seg.run (segs m) :=
  main_segs adm (pdats m) () 𝒱₀ L lv (hseg0 m) (reg0 m) (reg1 m) rfl c

set_option backward.isDefEq.respectTransparency.types false in
/-- From any memory with zero counters every weakly fair execution of the program terminates, nothing faulting; the result
    array ends at what layer 2's write-backs leave of its proof data, and every argument array as launched. -/
theorem run_main : θ_run defs (onTc (τ := τ) (main (F := F))) ⟨m, fun _ => 0, ρ⟩ (fun r => ∀ c : Dev nD,
      r.2.mem ((c.tc : Thread nD τ).loc main_v3) = (dat1 (V2 m) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c =>
      ⟨(h c _ (mem_uc main_v3 (by decide))).trans (W3_main_v3 m c),
       (h c _ (mem_uc main_arg0 (by decide))).trans (W3_main_arg0 m c),
       (h c _ (mem_uc main_arg1 (by decide))).trans (W3_main_arg1 m c),
       (h c _ (mem_uc main_arg2 (by decide))).trans (W3_main_arg2 m c),
       (h c _ (mem_uc main_arg3 (by decide))).trans (W3_main_arg3 m c),
       (h c _ (mem_uc main_arg4 (by decide))).trans (W3_main_arg4 m c),
       (h c _ (mem_uc main_arg5 (by decide))).trans (W3_main_arg5 m c)⟩)

/-- The frame: the program runs to the end, faults nowhere, and leaves its argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => (h c).2) (run_main m ρ)

end Cert.Kernel.Hand

end
-- ==== Proof.KI.Terms.lean ====
/-
  What the two kernel bodies store, as functions of the blocks they load.

  Layer 1 keeps the hidden activations `x · W1 + b1` in a scratch buffer: the first grid point computes them from the
  whole arrays `x`, `W1` and the row `b1` and stores them; every point then multiplies its band of 400 rows of the
  adjacency matrix by them, clamps at zero, multiplies by `W2` and adds the row `b2`. Layer 2 multiplies the same band
  by the first layer's whole result and clamps at zero. Each body writes its buffer by ONE store over the whole
  buffer, so what a buffer holds afterwards is the canonical reading of that one piece.
-/
import proofs.«166435_g12077448036904_cont_main3_85_3_alg».proof.Proof.Gen.KernelIdeal.Skeleton
import proofs.«166435_g12077448036904_cont_main3_85_3_alg».proof.Proof.Gen.KernelIdeal.Launch
import proofs.«166435_g12077448036904_cont_main3_85_3_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The whole-buffer rectangles the bodies load and store through -/

abbrev rX : Rect S10000x256 := Rect.unit (s := S10000x256) ![0, 0] S10000x256.size inb_S10000x256_S10000x256_0_0
abbrev rA : Rect S400x10000 := Rect.unit (s := S400x10000) ![0, 0] S400x10000.size inb_S400x10000_S400x10000_0_0
abbrev rW : Rect S256x256 := Rect.unit (s := S256x256) ![0, 0] S256x256.size inb_S256x256_S256x256_0_0
abbrev rB : Rect S1x256 := Rect.unit (s := S1x256) ![0, 0] S1x256.size inb_S1x256_S1x256_0_0
abbrev rO : Rect S400x256 := Rect.unit (s := S400x256) ![0, 0] S400x256.size inb_S400x256_S400x256_0_0

/-! ## What each store leaves -/

/-- The hidden activations as the first point of layer 1 leaves them in the scratch buffer. -/
def hid0 (x : Vec F S10000x256 .f32) (w1 : Vec F S256x256 .f32) (b1 : Vec F S1x256 .f32) : Vec F S10000x256 .f32 :=
  View.canon [⟨rX, k0_pay1 (View.ld x rX) (View.ld w1 rW) (View.ld b1 rB)⟩]

/-- The band of layer 1's result a point leaves in its output buffer, from the adjacency band, the hidden activations,
    `W2` and the row `b2`. -/
def band0 (a : Vec F S400x10000 .f32) (h : Vec F S10000x256 .f32) (w2 : Vec F S256x256 .f32) (b2 : Vec F S1x256 .f32) : Vec F S400x256 .f32 :=
  View.canon [⟨rO, k0_pay2 (View.ld a rA) (View.ld h rX) (View.ld w2 rW) (View.ld b2 rB)⟩]

/-- The band of layer 2's result a point leaves in its output buffer, from the adjacency band and layer 1's whole result. -/
def band1 (a : Vec F S400x10000 .f32) (h : Vec F S10000x256 .f32) : Vec F S400x256 .f32 :=
  View.canon [⟨rO, k1_pay1 (View.ld a rA) (View.ld h rX)⟩]

/-- One whole-buffer store covers its buffer. -/
theorem coverX (p0 : Vec F S10000x256 .f32) (y : S10000x256.Idx) :
    ∃ pc ∈ ([⟨rX, p0⟩] : List (View.Piece (Elt F) S10000x256 .f32)), y ∈ pc.1.set :=
  View.cover_of_tiled [⟨rX, p0⟩] S10000x256.size (by rfl) y
theorem coverO (p0 : Vec F S400x256 .f32) (y : S400x256.Idx) :
    ∃ pc ∈ ([⟨rO, p0⟩] : List (View.Piece (Elt F) S400x256 .f32)), y ∈ pc.1.set :=
  View.cover_of_tiled [⟨rO, p0⟩] S400x256.size (by rfl) y

/-! ## The branch of layer 1's body -/

/-- The condition of the body's one conditional, a word chain over the grid coordinate: "this is the first point". -/
abbrev cond0 (i : grid0.Coords) : Prop :=
  (Scalar.cmpi .ne (Scalar.extui (Scalar.cmpi .eq (BitVec.ofNat 32 (i 0).val) 0#32)) 0#32) = 1#1

/-- It holds at the first point of the grid and at no other: decided over the 25 points. -/
theorem hcond0 : ∀ t : Fin cfg0.N, cond0 (grid0.coords t) ↔ t.val = 0 :=
  (by decide +kernel : ∀ t : Fin grid0.N, cond0 (grid0.coords t) ↔ t.val = 0)

end Cert.KernelIdeal.Hand

end
-- ==== Proof.KI.Body0.lean ====
/-
  Layer 1's kernel body as two triples, one per case of its conditional.

  At the first grid point the body computes the hidden activations `x · W1 + b1` from the whole arrays and stores them
  over the scratch buffer, whatever it held; at a later point the branch is skipped and the scratch buffer is taken at
  the contents `h` it is found with. Either way the body then loads its band of the adjacency matrix, the scratch
  buffer, `W2` and the row `b2`, and stores the band `relu(a · h) · W2 + b2` over its whole output buffer; the six
  input buffers are left as found.
-/
import proofs.«166435_g12077448036904_cont_main3_85_3_alg».proof.Proof.KI.Terms

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 2000000 in
/-- The first point: the scratch buffer at anything; it ends at the hidden activations and the output at their band. -/
theorem sound_kernel0_first (c : Dev nD) (E : Set ℕ) (i : grid0.Coords) (hc : cond0 i)
    (arg1 : Memref sig .tc .vmem S10000x256 .f32) (harg1 : arg1.IsWhole) (arg2 : Memref sig .tc .vmem S400x10000 .f32) (harg2 : arg2.IsWhole)
    (arg3 : Memref sig .tc .vmem S256x256 .f32) (harg3 : arg3.IsWhole) (arg4 : Memref sig .tc .vmem S1x256 .f32) (harg4 : arg4.IsWhole)
    (arg5 : Memref sig .tc .vmem S256x256 .f32) (harg5 : arg5.IsWhole) (arg6 : Memref sig .tc .vmem S1x256 .f32) (harg6 : arg6.IsWhole)
    (arg7 : Memref sig .tc .vmem S400x256 .f32) (harg7 : arg7.IsWhole) (arg8 : Memref sig .tc .vmem S10000x256 .f32) (harg8 : arg8.IsWhole)
    (x : Vec F S10000x256 .f32) (a : Vec F S400x10000 .f32) (w1 : Vec F S256x256 .f32) (b1 : Vec F S1x256 .f32)
    (w2 : Vec F S256x256 .f32) (b2 : Vec F S1x256 .f32) (K : PUnit → sProp 𝕄) :
    iprop(owns (c : Thread nD τ) arg1 fullShare x ∗ owns (c : Thread nD τ) arg2 fullShare a ∗ owns (c : Thread nD τ) arg3 fullShare w1
        ∗ owns (c : Thread nD τ) arg4 fullShare b1 ∗ owns (c : Thread nD τ) arg5 fullShare w2 ∗ owns (c : Thread nD τ) arg6 fullShare b2
        ∗ (∃ d, owns (c : Thread nD τ) arg7 fullShare d) ∗ (∃ d, owns (c : Thread nD τ) arg8 fullShare d)
        ∗ (iprop(owns (c : Thread nD τ) arg1 fullShare x ∗ owns (c : Thread nD τ) arg2 fullShare a ∗ owns (c : Thread nD τ) arg3 fullShare w1
            ∗ owns (c : Thread nD τ) arg4 fullShare b1 ∗ owns (c : Thread nD τ) arg5 fullShare w2 ∗ owns (c : Thread nD τ) arg6 fullShare b2
            ∗ owns (c : Thread nD τ) arg7 fullShare (band0 a (hid0 x w1 b1) w2 b2) ∗ owns (c : Thread nD τ) arg8 fullShare (hid0 x w1 b1)) -∗ K ⟨⟩))
      ⊢ wp frame (wpE (defs₀ (F := F)) Variants.none c none) E
          (cc0__layer1_kernel i arg1 harg1 arg2 harg2 arg3 harg3 arg4 harg4 arg5 harg5 arg6 harg6 arg7 harg7 arg8 harg8) K := by
  simp only [cc0__layer1_kernel_eq_skeleton]; unfold cc0__layer1_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf1 hf2 hf3 hf4 hf5 hf6
  sl_exec (disch := exact hc)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    sl_unfold_words
    rw [View.read_writes_eq_canon _ _ _ (coverO _), View.readCov_eq_canon_ld _ _ _ (coverX _)]
    rfl
  · iexists _; isplitr
    swap; · iexact H8
    ipureintro
    sl_unfold_words
    exact View.read_writes_eq_canon _ _ _ (coverX _)

set_option maxHeartbeats 2000000 in
/-- A later point: the scratch buffer is found at `h` and left there; the output ends at the band computed from `h`. -/
theorem sound_kernel0_later (c : Dev nD) (E : Set ℕ) (i : grid0.Coords) (hc : ¬cond0 i)
    (arg1 : Memref sig .tc .vmem S10000x256 .f32) (harg1 : arg1.IsWhole) (arg2 : Memref sig .tc .vmem S400x10000 .f32) (harg2 : arg2.IsWhole)
    (arg3 : Memref sig .tc .vmem S256x256 .f32) (harg3 : arg3.IsWhole) (arg4 : Memref sig .tc .vmem S1x256 .f32) (harg4 : arg4.IsWhole)
    (arg5 : Memref sig .tc .vmem S256x256 .f32) (harg5 : arg5.IsWhole) (arg6 : Memref sig .tc .vmem S1x256 .f32) (harg6 : arg6.IsWhole)
    (arg7 : Memref sig .tc .vmem S400x256 .f32) (harg7 : arg7.IsWhole) (arg8 : Memref sig .tc .vmem S10000x256 .f32) (harg8 : arg8.IsWhole)
    (x : Vec F S10000x256 .f32) (a : Vec F S400x10000 .f32) (w1 : Vec F S256x256 .f32) (b1 : Vec F S1x256 .f32)
    (w2 : Vec F S256x256 .f32) (b2 : Vec F S1x256 .f32) (h : Vec F S10000x256 .f32) (K : PUnit → sProp 𝕄) :
    iprop(owns (c : Thread nD τ) arg1 fullShare x ∗ owns (c : Thread nD τ) arg2 fullShare a ∗ owns (c : Thread nD τ) arg3 fullShare w1
        ∗ owns (c : Thread nD τ) arg4 fullShare b1 ∗ owns (c : Thread nD τ) arg5 fullShare w2 ∗ owns (c : Thread nD τ) arg6 fullShare b2
        ∗ (∃ d, owns (c : Thread nD τ) arg7 fullShare d) ∗ owns (c : Thread nD τ) arg8 fullShare h
        ∗ (iprop(owns (c : Thread nD τ) arg1 fullShare x ∗ owns (c : Thread nD τ) arg2 fullShare a ∗ owns (c : Thread nD τ) arg3 fullShare w1
            ∗ owns (c : Thread nD τ) arg4 fullShare b1 ∗ owns (c : Thread nD τ) arg5 fullShare w2 ∗ owns (c : Thread nD τ) arg6 fullShare b2
            ∗ owns (c : Thread nD τ) arg7 fullShare (band0 a h w2 b2) ∗ owns (c : Thread nD τ) arg8 fullShare h) -∗ K ⟨⟩))
      ⊢ wp frame (wpE (defs₀ (F := F)) Variants.none c none) E
          (cc0__layer1_kernel i arg1 harg1 arg2 harg2 arg3 harg3 arg4 harg4 arg5 harg5 arg6 harg6 arg7 harg7 arg8 harg8) K := by
  simp only [cc0__layer1_kernel_eq_skeleton]; unfold cc0__layer1_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, Hk⟩
  subst hf1 hf2 hf3 hf4 hf5 hf6 hf8
  sl_exec (disch := exact hc)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (coverO _)
  · iexists f8; isplitr; · ipureintro; rfl
    iexact H8

end Cert.KernelIdeal.Hand

end
-- ==== Proof.KI.Dat0.lean ====
/-
  Layer 1's pallas_call: what its windows' buffers and its scratch buffer hold point by point.

  The region has 25 points. Windows 0, 2, 3, 4, 5 are the whole arrays `x`, `W1`, the row `b1`, `W2` and the row
  `b2`, fetched once at the first point and left in place; window 1 is the band of 400 rows of the adjacency matrix at
  the point; window 6 the band of 400 rows of the result, written back at every point. The body keeps the hidden
  activations in a scratch buffer of its own between points: whatever it holds before the first point, after every
  point it holds `hid0` of the whole arrays `x`, `W1`, `b1` — the same value at every point, since those windows'
  blocks do not move. So the region's invariant is, before the first point, the scoped buffers no window stages at
  anything, and after any point the scratch buffer at that value beside the others at anything; and the output's
  buffer after point `t` is `band0` of the point's adjacency band, that value, `W2` and `b2`.
-/
import proofs.«166435_g12077448036904_cont_main3_85_3_alg».proof.Proof.KI.Body0

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current buffer holds its block at every point, fetched there or not: where it is not fetched
    its block index has not moved and the body left the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- The first point of the grid. -/
abbrev t0 : Fin cfg0.N := ⟨0, by decide⟩

/-- The hidden activations, of the whole arrays `x`, `W1` and `b1` as the region finds them. -/
def hidV (c : Dev nD) : Vec F S10000x256 .f32 := hid0 (iblk0 V c 0 t0) (iblk0 V c 2 t0) (iblk0 V c 3 t0)

/-- The scratch buffer as the memref the body is called with. -/
abbrev scM : Memref sig .tc .vmem S10000x256 .f32 := Memref.whole cc0_scratch0

/-- The other scoped buffers no window of this region stages (layer 2's staging buffers), each whole at some contents. -/
def others (c : Dev nD) : sProp 𝕄 :=
  iprop((∃ f : Buf (Elt F) ((c : Thread nD τ).loc cc1_stg0_0), ((c : Thread nD τ).loc cc1_stg0_0) ↦{fullShare} f)
      ∗ (∃ f : Buf (Elt F) ((c : Thread nD τ).loc cc1_stg0_1), ((c : Thread nD τ).loc cc1_stg0_1) ↦{fullShare} f)
      ∗ (∃ f : Buf (Elt F) ((c : Thread nD τ).loc cc1_stg1_0), ((c : Thread nD τ).loc cc1_stg1_0) ↦{fullShare} f)
      ∗ (∃ f : Buf (Elt F) ((c : Thread nD τ).loc cc1_stg2_0), ((c : Thread nD τ).loc cc1_stg2_0) ↦{fullShare} f)
      ∗ (∃ f : Buf (Elt F) ((c : Thread nD τ).loc cc1_stg2_1), ((c : Thread nD τ).loc cc1_stg2_1) ↦{fullShare} f))

/-- The scoped buffers no window stages, the scratch buffer first and as a memref owned at some contents. -/
theorem PhiA0_eq (c : Dev nD) :
    (Pipeline.ΦA spec0 c : sProp 𝕄)
      = iprop(((∃ d, owns (c : Thread nD τ) scM fullShare d) ∗ others (F := F) c) ∗ (∃ r, prngReg c r)) := by
  unfold Pipeline.ΦA others; rw [scopedRest0_eq]; simp only [scM, owns_whole]; rfl

/-- The region's invariant before position `n`. -/
def PhiS (c : Dev nD) : ℕ → sProp 𝕄
  | 0 => Pipeline.ΦA spec0 c
  | _ + 1 => iprop((owns (c : Thread nD τ) scM fullShare (hidV V c) ∗ others (F := F) c) ∗ (∃ r, prngReg c r))

theorem PhiS_pos (c : Dev nD) (n : ℕ) (hn : n ≠ 0) :
    PhiS V c n = iprop((owns (c : Thread nD τ) scM fullShare (hidV V c) ∗ others (F := F) c) ∗ (∃ r, prngReg c r)) := by
  cases n with
  | zero => exact absurd rfl hn
  | succ n => rfl

/-- The proof data of the region on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => band0 (iblk0 V c 1 t) (hidV V c) (iblk0 V c 4 t) (iblk0 V c 5 t)
  Φ t := PhiS V c t.val
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) :
    (dat0 V c).after 6 t = band0 (iblk0 V c 1 t) (hidV V c) (iblk0 V c 4 t) (iblk0 V c 5 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

set_option maxHeartbeats 2000000 in
/-- The body at any point. At the first point the invariant hands it the scratch buffer at anything and takes it back at
    the hidden activations; at a later point it hands the scratch buffer at them and takes it back unchanged. The inputs'
    buffers hold their blocks, so the case's triple applies. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).owesAt () t.succ = (dat0 V c).owesAt () t.castSucc from rfl,
    show (dat0 V c).Φ t.succ = PhiS V c (t.val + 1) from rfl,
    show (dat0 V c).Φ t.castSucc = PhiS V c t.val from rfl,
    after0_0, after0_1, after0_2, after0_3, after0_4, after0_5, after0_6]
  rw [show PhiS V c (t.val + 1) = iprop((owns (c : Thread nD τ) scM fullShare (hidV V c) ∗ others (F := F) c) ∗ (∃ r, prngReg c r)) from rfl]
  by_cases hz : t.val = 0
  · obtain rfl : t = t0 := Fin.ext hz
    rw [show PhiS V c (t0 : Fin cfg0.N).val = Pipeline.ΦA spec0 c from rfl, PhiA0_eq]
    iintro ⟨⟨⟨HS, Hoth⟩, Hg⟩, Ho, ⟨%d0, H0⟩, ⟨%d1, H1⟩, ⟨%d2, H2⟩, ⟨%d3, H3⟩, ⟨%d4, H4⟩, ⟨%d5, H5⟩, ⟨%d6, H6⟩⟩
    iapply (sound_kernel0_first c Set.univ _ ((hcond0 t0).mpr rfl) _ _ _ _ _ _ _ _ _ _ _ _ _ _ _ _
      (iblk0 V c 0 t0) (iblk0 V c 1 t0) (iblk0 V c 2 t0) (iblk0 V c 3 t0) (iblk0 V c 4 t0) (iblk0 V c 5 t0) _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS]; · iexact HS
    iintro ⟨H0, H1, H2, H3, H4, H5, H6, HS⟩
    isplitl [HS Hoth Hg]
    · isplitl [HS Hoth]
      · isplitl [HS]; · iexact HS
        iexact Hoth
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [PhiS_pos V c _ hz]
    iintro ⟨⟨⟨HS, Hoth⟩, Hg⟩, Ho, ⟨%d0, H0⟩, ⟨%d1, H1⟩, ⟨%d2, H2⟩, ⟨%d3, H3⟩, ⟨%d4, H4⟩, ⟨%d5, H5⟩, ⟨%d6, H6⟩⟩
    iapply (sound_kernel0_later c Set.univ _ (fun h => hz ((hcond0 t).mp h)) _ _ _ _ _ _ _ _ _ _ _ _ _ _ _ _
      (iblk0 V c 0 t) (iblk0 V c 1 t) (iblk0 V c 2 t) (iblk0 V c 3 t) (iblk0 V c 4 t) (iblk0 V c 5 t) (hidV V c) _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS]; · iexact HS
    iintro ⟨H0, H1, H2, H3, H4, H5, H6, HS⟩
    isplitl [HS Hoth Hg]
    · isplitl [HS Hoth]
      · isplitl [HS]; · iexact HS
        iexact Hoth
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The region's body obligation, at every point. -/
theorem body_obligation0 (c : Dev nD) : BodyObligation (dat0 (F := F) V c) (defs₀ (F := F)) Variants.none () Set.univ := fun t => by
  rw [bigSep_W0, bigSep_W0]
  exact sound_body0 V c t

/-- What the region is handed, the scoped buffers no window stages at anything, is the invariant before the first point. -/
theorem hin0 (c : Dev nD) : (Pipeline.ΦA spec0 c : sProp 𝕄) ⊢ (dat0 V c).Φ 0 := .rfl

/-- After the last point the invariant gives the same back: the scratch buffer's contents are forgotten. -/
theorem hout0 (c : Dev nD) : (dat0 V c).Φ (Fin.last cfg0.N) ⊢ (Pipeline.ΦA spec0 c : sProp 𝕄) := by
  rw [show (dat0 V c).Φ (Fin.last cfg0.N) = PhiS V c (Fin.last cfg0.N).val from rfl,
    PhiS_pos V c _ (by rw [Fin.val_last]; decide), PhiA0_eq]
  iintro ⟨⟨HS, Hoth⟩, Hg⟩
  isplitl [HS Hoth]
  · isplitl [HS]; · iexists _; iexact HS
    iexact Hoth
  iexact Hg

end Cert.KernelIdeal.Hand

end
-- ==== Proof.KI.Body1.lean ====
/-
  The two kernel bodies as triples.

  Layer 2's body loads its band of the adjacency matrix and layer 1's whole result, and stores the clamped product over
  its whole output buffer. Layer 1's body has two cases, told apart by the grid coordinate: at the first point it first
  fills the scratch buffer with the hidden activations, whatever the buffer held; at every later point the scratch
  buffer already holds them and is only read. In both cases the point's output buffer ends at the band computed from
  the scratch buffer's contents, and the inputs' buffers are left as found.
-/
import proofs.«166435_g12077448036904_cont_main3_85_3_alg».proof.Proof.KI.Terms

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- Layer 2's body: the inputs' buffers at `a` and `h`, the output's at anything, run to the output's at `band1 a h`. -/
theorem sound_kernel1 (c : Dev nD) (E : Set ℕ) (i : grid1.Coords)
    (arg1 : Memref sig .tc .vmem S400x10000 .f32) (harg1 : arg1.IsWhole) (arg2 : Memref sig .tc .vmem S10000x256 .f32) (harg2 : arg2.IsWhole)
    (arg3 : Memref sig .tc .vmem S400x256 .f32) (harg3 : arg3.IsWhole)
    (a : Vec F S400x10000 .f32) (h : Vec F S10000x256 .f32) (K : PUnit → sProp 𝕄) :
    iprop(owns (c : Thread nD τ) arg1 fullShare a ∗ owns (c : Thread nD τ) arg2 fullShare h ∗ (∃ d, owns (c : Thread nD τ) arg3 fullShare d)
        ∗ (iprop(owns (c : Thread nD τ) arg1 fullShare a ∗ owns (c : Thread nD τ) arg2 fullShare h ∗ owns (c : Thread nD τ) arg3 fullShare (band1 a h)) -∗ K ⟨⟩))
      ⊢ wp frame (wpE (defs₀ (F := F)) Variants.none c none) E (cc1__layer2_kernel i arg1 harg1 arg2 harg2 arg3 harg3) K := by
  simp only [cc1__layer2_kernel_eq_skeleton]; unfold cc1__layer2_kernel_skel
  unfold owns
  iintro ⟨⟨%f1, %hf1, H1⟩, ⟨%f2, %hf2, H2⟩, ⟨%d3, %f3, -, H3⟩, Hk⟩
  subst hf1 hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (coverO _)

end Cert.KernelIdeal.Hand

end
-- ==== Proof.KI.Dat1.lean ====
/-
  Layer 2's pallas_call: what its windows' buffers hold point by point.

  The region has 25 points. Window 0 is the band of 400 rows of the adjacency matrix at the point, window 1 the whole
  of layer 1's result (fetched once, at the first point, and left in place), window 2 the band of 400 rows of the
  result, written back at every point. The body leaves the two inputs as found and the output at the clamped product
  of the two, so the proof data are: each input's buffer at its block of the array as the region finds it, the output's
  at `band1` of the two blocks; the region keeps nothing of its own between points.
-/
import proofs.«166435_g12077448036904_cont_main3_85_3_alg».proof.Proof.KI.Body1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current buffer holds its block at every point, fetched there or not: where it is not fetched
    its block index has not moved and the body left the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The proof data of the region on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => band1 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = band1 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' buffers hold their blocks, so the body's triple applies; the region's own
    resources pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The region's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Run.lean ====
/-
  The whole program's run: two reshapes of the bias rows on the host, then the two pallas_calls.

  Between the items core `c` holds every unscoped buffer whole at known contents: at launch the memory `m`; after the
  two reshapes the same with the two reshaped rows written; after layer 1's region the same with its result array at
  what its 25 write-backs leave (`Dat.arrAt`), every other buffer as entered; after layer 2's region the same again
  with the final result array at what its write-backs leave. Each region is entered by splitting its windows' arrays
  out of those buffers and left by putting them back; the generator register rides beside them, and nothing is ever
  owed to another core. No host operation and no region writes an argument array, so each argument ends as launched;
  the result ends at layer 2's folded write-backs, which is what the value half of the certificate reads.
-/
import proofs.«166435_g12077448036904_cont_main3_85_3_alg».proof.Proof.KI.Dat0
import proofs.«166435_g12077448036904_cont_main3_85_3_alg».proof.Proof.KI.Dat1
import Idealize.ShloMosaic.Lib.Pipeline.RegionsLoop
import Idealize.ShloMosaic.Lib.Pipeline.FrameSuffix

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => m ((c : Dev nD), b)
/-- After the two reshapes (layer 1's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At layer 1's exit (layer 2's entry): its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- At layer 2's exit: its arrays at what the pipeline leaves, every other buffer as entered. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-! ## The arguments end as launched, and the result at layer 2's write-backs -/

theorem W3_main_arg0 (c : Dev nD) : W3 m c (Proc.devRef .tc main_arg0) = m ((c : Thread nD τ).loc main_arg0) :=
  calc W3 m c (Proc.devRef .tc main_arg0)
    _ = W2 m c (Proc.devRef .tc main_arg0) := W3_of_ne m c main_arg0 (by decide)
    _ = W1 m c (Proc.devRef .tc main_arg0) := (W2_arr m c 0).trans (((dat0 (V1 m) c).arrAt_in 0 rfl _).trans (A_eq0 (V1 m) c 0))
    _ = W0 m c (Proc.devRef .tc main_arg0) := StableHlo.after_of_forall_not_mem (b := Proc.devRef .tc main_arg0) _ _ (List.forall_iff_forall_mem.mp (by
          simp only [hostOps0, List.Forall, StableHlo.reshape_writes, Finset.mem_singleton]
          repeat' apply And.intro
          all_goals exact StableHlo.devRef_ne_of_ne (by decide)))
    _ = m ((c : Thread nD τ).loc main_arg0) := rfl
theorem W3_main_arg1 (c : Dev nD) : W3 m c (Proc.devRef .tc main_arg1) = m ((c : Thread nD τ).loc main_arg1) :=
  calc W3 m c (Proc.devRef .tc main_arg1)
    _ = W2 m c (Proc.devRef .tc main_arg1) := (W3_arr m c 0).trans (((dat1 (V2 m) c).arrAt_in 0 rfl _).trans (A_eq1 (V2 m) c 0))
    _ = W1 m c (Proc.devRef .tc main_arg1) := (W2_arr m c 1).trans (((dat0 (V1 m) c).arrAt_in 1 rfl _).trans (A_eq0 (V1 m) c 1))
    _ = W0 m c (Proc.devRef .tc main_arg1) := StableHlo.after_of_forall_not_mem (b := Proc.devRef .tc main_arg1) _ _ (List.forall_iff_forall_mem.mp (by
          simp only [hostOps0, List.Forall, StableHlo.reshape_writes, Finset.mem_singleton]
          repeat' apply And.intro
          all_goals exact StableHlo.devRef_ne_of_ne (by decide)))
    _ = m ((c : Thread nD τ).loc main_arg1) := rfl
theorem W3_main_arg2 (c : Dev nD) : W3 m c (Proc.devRef .tc main_arg2) = m ((c : Thread nD τ).loc main_arg2) :=
  calc W3 m c (Proc.devRef .tc main_arg2)
    _ = W2 m c (Proc.devRef .tc main_arg2) := W3_of_ne m c main_arg2 (by decide)
    _ = W1 m c (Proc.devRef .tc main_arg2) := (W2_arr m c 2).trans (((dat0 (V1 m) c).arrAt_in 2 rfl _).trans (A_eq0 (V1 m) c 2))
    _ = W0 m c (Proc.devRef .tc main_arg2) := StableHlo.after_of_forall_not_mem (b := Proc.devRef .tc main_arg2) _ _ (List.forall_iff_forall_mem.mp (by
          simp only [hostOps0, List.Forall, StableHlo.reshape_writes, Finset.mem_singleton]
          repeat' apply And.intro
          all_goals exact StableHlo.devRef_ne_of_ne (by decide)))
    _ = m ((c : Thread nD τ).loc main_arg2) := rfl
theorem W3_main_arg3 (c : Dev nD) : W3 m c (Proc.devRef .tc main_arg3) = m ((c : Thread nD τ).loc main_arg3) :=
  calc W3 m c (Proc.devRef .tc main_arg3)
    _ = W2 m c (Proc.devRef .tc main_arg3) := W3_of_ne m c main_arg3 (by decide)
    _ = W1 m c (Proc.devRef .tc main_arg3) := W2_of_ne m c main_arg3 (by decide)
    _ = W0 m c (Proc.devRef .tc main_arg3) := StableHlo.after_of_forall_not_mem (b := Proc.devRef .tc main_arg3) _ _ (List.forall_iff_forall_mem.mp (by
          simp only [hostOps0, List.Forall, StableHlo.reshape_writes, Finset.mem_singleton]
          repeat' apply And.intro
          all_goals exact StableHlo.devRef_ne_of_ne (by decide)))
    _ = m ((c : Thread nD τ).loc main_arg3) := rfl
theorem W3_main_arg4 (c : Dev nD) : W3 m c (Proc.devRef .tc main_arg4) = m ((c : Thread nD τ).loc main_arg4) :=
  calc W3 m c (Proc.devRef .tc main_arg4)
    _ = W2 m c (Proc.devRef .tc main_arg4) := W3_of_ne m c main_arg4 (by decide)
    _ = W1 m c (Proc.devRef .tc main_arg4) := (W2_arr m c 4).trans (((dat0 (V1 m) c).arrAt_in 4 rfl _).trans (A_eq0 (V1 m) c 4))
    _ = W0 m c (Proc.devRef .tc main_arg4) := StableHlo.after_of_forall_not_mem (b := Proc.devRef .tc main_arg4) _ _ (List.forall_iff_forall_mem.mp (by
          simp only [hostOps0, List.Forall, StableHlo.reshape_writes, Finset.mem_singleton]
          repeat' apply And.intro
          all_goals exact StableHlo.devRef_ne_of_ne (by decide)))
    _ = m ((c : Thread nD τ).loc main_arg4) := rfl
theorem W3_main_arg5 (c : Dev nD) : W3 m c (Proc.devRef .tc main_arg5) = m ((c : Thread nD τ).loc main_arg5) :=
  calc W3 m c (Proc.devRef .tc main_arg5)
    _ = W2 m c (Proc.devRef .tc main_arg5) := W3_of_ne m c main_arg5 (by decide)
    _ = W1 m c (Proc.devRef .tc main_arg5) := W2_of_ne m c main_arg5 (by decide)
    _ = W0 m c (Proc.devRef .tc main_arg5) := StableHlo.after_of_forall_not_mem (b := Proc.devRef .tc main_arg5) _ _ (List.forall_iff_forall_mem.mp (by
          simp only [hostOps0, List.Forall, StableHlo.reshape_writes, Finset.mem_singleton]
          repeat' apply And.intro
          all_goals exact StableHlo.devRef_ne_of_ne (by decide)))
    _ = m ((c : Thread nD τ).loc main_arg5) := rfl

theorem W3_main_v3 (c : Dev nD) : W3 m c (Proc.devRef .tc main_v3) = (dat1 (V2 m) c).arrAt 2 cfg1.N :=
  W3_arr m c 2

/-! ## The proof data family and the thread state -/

abbrev adm : (p : Fin 2) → (pcfgs (F := F) p).Adm := fun p => (cfgs p).toPCfg_adm
/-- Both pipelines' proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
/-- What rides beside the buffers through every item: the generator register at some state and nothing owed. -/
abbrev R (c : Dev nD) : sProp 𝕄 := iprop((∃ r, prngReg c r) ∗ ∃ W, owes (c : Thread nD τ) (0 : CellTallies nD τ sig Unit) W)
theorem hostOps0_fresh : (hostOps0 : List (HloOp τ sig (Elt F))).Forall fun op => op.fresh = ∅ := by
  simp only [List.Forall]; repeat' constructor
/-- The two reshapes as a segment over the unscoped buffers from the launch contents. -/
abbrev hseg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (W0 m) R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last boundary's contents. -/
abbrev Tₙ (c : Dev nD) : sProp 𝕄 := iprop(StableHlo.held (c : Thread nD τ) (Pipeline.ucRefs τ sig) (W3 m c) ∗ ∃ r, prngReg c r)

/-! ## The regions as segments -/

set_option backward.isDefEq.respectTransparency.types false in
/-- Layer 1's region: entered from the buffers after the reshapes, left with its result array written. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m 0 c).Φ (Fin.last _) ⊢ (Pipeline.ΦA spec0 c : sProp 𝕄) from hout0 (V1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Layer 2's region: entered from what layer 1's left, left at the final contents. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m 1 c).Φ (Fin.last _) ⊢ (Pipeline.ΦA spec1 c : sProp 𝕄) from .rfl).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The run -/

abbrev segs : List (Pipeline.Seg (pcfgs (F := F)) adm (pdats m) () defs₀ 𝒱₀ L lv) :=
  [ .host (hseg0 m), .region (reg0 m), .region (reg1 m) ]

theorem main_run (c : Dev nD) : main (F := F) c = Pipeline.Seg.run (segs m) :=
  main_segs adm (pdats m) () 𝒱₀ L lv (hseg0 m) (reg0 m) (reg1 m) rfl c

set_option backward.isDefEq.respectTransparency.types false in
/-- From any memory with zero counters every weakly fair execution of the program terminates, nothing faulting; the result
    array ends at what layer 2's write-backs leave of its proof data, and every argument array as launched. -/
theorem run_main : θ_run defs (onTc (τ := τ) (main (F := F))) ⟨m, fun _ => 0, ρ⟩ (fun r => ∀ c : Dev nD,
      r.2.mem ((c.tc : Thread nD τ).loc main_v3) = (dat1 (V2 m) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c =>
      ⟨(h c _ (mem_uc main_v3 (by decide))).trans (W3_main_v3 m c),
       (h c _ (mem_uc main_arg0 (by decide))).trans (W3_main_arg0 m c),
       (h c _ (mem_uc main_arg1 (by decide))).trans (W3_main_arg1 m c),
       (h c _ (mem_uc main_arg2 (by decide))).trans (W3_main_arg2 m c),
       (h c _ (mem_uc main_arg3 (by decide))).trans (W3_main_arg3 m c),
       (h c _ (mem_uc main_arg4 (by decide))).trans (W3_main_arg4 m c),
       (h c _ (mem_uc main_arg5 (by decide))).trans (W3_main_arg5 m c)⟩)

/-- The frame: the program runs to the end, faults nowhere, and leaves its argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => (h c).2) (run_main m ρ)

end Cert.KernelIdeal.Hand

end
-- ==== Proof.Spec.lean ====
/-
  The function both programs compute, index by index, on the extended reals.

  A two-layer graph convolution over a dense adjacency matrix `adj` (10000 × 10000) of node features `x` (10000 × 256):

      hid  r j = (∑ k, x r k · W1 k j) + b1 j
      act  r j = max (∑ l, adj r l · hid l j) 0
      lin  r j = (∑ k, act r k · W2 k j) + b2 j
      out  r j = max (∑ l, adj r l · lin l j) 0

  Every sum is a finite sum of products in the commutative monoid of the extended reals, and both programs form the
  same sums over the same index sets, so no law beyond reading each product as its sum is needed.
-/
import Idealize.ShloMosaic.PureOps.Ideal
import Idealize.ShloMosaic.Lib.ValueIdx

noncomputable section

namespace Cert.Spec

open Idealize.ShloMosaic Idealize.ShloMosaic.ValueIdx

/-- The shapes of the arguments: features and results, the adjacency matrix, a weight matrix, a bias row. -/
abbrev SX : Shape := ⟨2, ![10000, 256]⟩
abbrev SA : Shape := ⟨2, ![10000, 10000]⟩
abbrev SW : Shape := ⟨2, ![256, 256]⟩
abbrev SB : Shape := ⟨1, ![256]⟩

/-- Zero, as the word both programs clamp against. -/
abbrev zero : EReal := Ideal.ofBits .f32 0x00000000#32

/-- A dense layer: row `r` of `u` against column `j` of `w`, plus the bias at `j`. -/
def dense (u : Fin 10000 → Fin 256 → EReal) (w : SW.Idx → EReal) (b : SB.Idx → EReal) (r : Fin 10000) (j : Fin 256) : EReal :=
  (∑ k : Fin 256, u r k * w (ix2 k j)) + b (ix1 j)

/-- Aggregation over the graph and the clamp: row `r` of `adj` against column `j` of `h`, at least zero. -/
def agg (adj : SA.Idx → EReal) (h : Fin 10000 → Fin 256 → EReal) (r : Fin 10000) (j : Fin 256) : EReal :=
  max (∑ l : Fin 10000, adj (ix2 r l) * h l j) zero

/-- The hidden activations `x · W1 + b1`. -/
def hid (x : SX.Idx → EReal) (w1 : SW.Idx → EReal) (b1 : SB.Idx → EReal) : Fin 10000 → Fin 256 → EReal :=
  dense (fun r k => x (ix2 r k)) w1 b1

/-- The first layer's result `relu(adj · hid) · W2 + b2`. -/
def lin (x : SX.Idx → EReal) (adj : SA.Idx → EReal) (w1 : SW.Idx → EReal) (b1 : SB.Idx → EReal) (w2 : SW.Idx → EReal) (b2 : SB.Idx → EReal) :
    Fin 10000 → Fin 256 → EReal :=
  dense (agg adj (hid x w1 b1)) w2 b2

/-- The result `relu(adj · lin)` at row `r` and column `j`. -/
def outAt (x : SX.Idx → EReal) (adj : SA.Idx → EReal) (w1 : SW.Idx → EReal) (b1 : SB.Idx → EReal) (w2 : SW.Idx → EReal) (b2 : SB.Idx → EReal) :
    Fin 10000 → Fin 256 → EReal :=
  agg adj (lin x adj w1 b1 w2 b2)

/-- The result array. -/
def out (x : SX.Idx → EReal) (adj : SA.Idx → EReal) (w1 : SW.Idx → EReal) (b1 : SB.Idx → EReal) (w2 : SW.Idx → EReal) (b2 : SB.Idx → EReal) :
    SX.Idx → EReal :=
  fun i => outAt x adj w1 b1 w2 b2 (i 0) (i 1)

theorem out_ix2 (x : SX.Idx → EReal) (adj : SA.Idx → EReal) (w1 : SW.Idx → EReal) (b1 : SB.Idx → EReal) (w2 : SW.Idx → EReal) (b2 : SB.Idx → EReal)
    (r : Fin 10000) (j : Fin 256) : out x adj w1 b1 w2 b2 (ix2 r j) = outAt x adj w1 b1 w2 b2 r j := rfl

end Cert.Spec

end
-- ==== Proof.KI.PayIdx.lean ====
/-
  What each kernel store holds, at an index, on the extended reals.

  Each of the three stores writes its whole buffer with a value built from whole-buffer loads, so the buffer
  afterwards reads as that value. Read at row `p` and column `j`:

      hidden activations   (∑ k, x p k · W1 k j) + b1 j
      layer 1's band       (∑ k, max (∑ l, a p l · h l k) 0 · W2 k j) + b2 j
      layer 2's band       max (∑ l, a p l · h l j) 0

  The only steps that are not elementwise are the three matrix products (each accumulates into the zero array, so
  its entry is the plain sum of products over the one contracted axis) and the bias row spread over all rows (entry
  `(p, j)` of the spread array is entry `(0, j)` of the row). Recasting an array to its own shape changes nothing.
-/
import proofs.«166435_g12077448036904_cont_main3_85_3_alg».proof.Proof.KI.Terms
import proofs.«166435_g12077448036904_cont_main3_85_3_alg».proof.Proof.Spec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

/-! ## The product of the features with the first weight matrix: [10000, 256] · [256, 256]

For output entry `i = (row, column)` and contraction position `q`, the left factor sits at `(row, q)` and the right
factor at `(q, column)`: one fact per axis of each operand. -/

/-- The left factor's row is the output's row. -/
theorem lhs_xw_0 (i : S10000x256.Idx) (q : dot_S10000x256_S256x256_S10000x256_1_0_0_1_n_n.contr.Idx) :
    (dot_S10000x256_S256x256_S10000x256_1_0_0_1_n_n.lhsIdx i q 0).val = (i 0).val := by
  unfold DotDims.lhsIdx
  rw [dif_neg (show ¬(0 : Fin S10000x256.rank) ∈ dot_S10000x256_S256x256_S10000x256_1_0_0_1_n_n.lhsBatch by decide), dif_pos (show (0 : Fin S10000x256.rank) ∈ dot_S10000x256_S256x256_S10000x256_1_0_0_1_n_n.lhsNonContracting by decide)]
  rfl
/-- The left factor's column is the contraction position. -/
theorem lhs_xw_1 (i : S10000x256.Idx) (q : dot_S10000x256_S256x256_S10000x256_1_0_0_1_n_n.contr.Idx) :
    (dot_S10000x256_S256x256_S10000x256_1_0_0_1_n_n.lhsIdx i q 1).val = (q ⟨0, by decide⟩).val :=
  dot_S10000x256_S256x256_S10000x256_1_0_0_1_n_n.lhsIdx_val_of_single rfl i q
/-- The right factor's row is the contraction position. -/
theorem rhs_xw_0 (i : S10000x256.Idx) (q : dot_S10000x256_S256x256_S10000x256_1_0_0_1_n_n.contr.Idx) :
    (dot_S10000x256_S256x256_S10000x256_1_0_0_1_n_n.rhsIdx i q 0).val = (q ⟨0, by decide⟩).val :=
  dot_S10000x256_S256x256_S10000x256_1_0_0_1_n_n.rhsIdx_val_of_single rfl i q
/-- The right factor's column is the output's column. -/
theorem rhs_xw_1 (i : S10000x256.Idx) (q : dot_S10000x256_S256x256_S10000x256_1_0_0_1_n_n.contr.Idx) :
    (dot_S10000x256_S256x256_S10000x256_1_0_0_1_n_n.rhsIdx i q 1).val = (i 1).val := by
  unfold DotDims.rhsIdx
  rw [dif_neg (show ¬(1 : Fin S256x256.rank) ∈ dot_S10000x256_S256x256_S10000x256_1_0_0_1_n_n.rhsBatch by decide), dif_pos (show (1 : Fin S256x256.rank) ∈ dot_S10000x256_S256x256_S10000x256_1_0_0_1_n_n.rhsNonContracting by decide)]
  rfl

/-- Entry `(p, q)` of `x · w`, accumulated into zero, is `∑ k, x p k · w k q`: the sum over contraction positions,
    re-indexed by the one contracted coordinate. -/
theorem mm_x_w (x : Vec Ideal S10000x256 .f32) (w : Vec Ideal S256x256 .f32) (p : Fin 10000) (q : Fin 256) :
    matmul (F := Ideal) (φ₁ := .f32) (φ₂ := .f32) dot_S10000x256_S256x256_S10000x256_1_0_0_1_n_n none x w (constant S10000x256 .f32 0x00000000#32) (ix2 p q)
      = ∑ k : Fin 256, x (ix2 p k) * w (ix2 k q) := by
  refine (Ideal.matmul_constant_zero_apply dot_S10000x256_S256x256_S10000x256_1_0_0_1_n_n none x w (ix2 p q)).trans ?_
  rw [← Equiv.sum_comp (contrEquiv1 dot_S10000x256_S256x256_S10000x256_1_0_0_1_n_n 256 rfl rfl).symm]
  refine Finset.sum_congr rfl fun k _ => ?_
  have hk := contrEquiv1_symm_val dot_S10000x256_S256x256_S10000x256_1_0_0_1_n_n 256 rfl rfl k
  have el : dot_S10000x256_S256x256_S10000x256_1_0_0_1_n_n.lhsIdx (ix2 p q) ((contrEquiv1 dot_S10000x256_S256x256_S10000x256_1_0_0_1_n_n 256 rfl rfl).symm k) = ix2 p k := funext fun a => Fin.ext (by
    match a with
    | ⟨0, _⟩ => exact lhs_xw_0 _ _
    | ⟨1, _⟩ => exact (lhs_xw_1 _ _).trans hk)
  have er : dot_S10000x256_S256x256_S10000x256_1_0_0_1_n_n.rhsIdx (ix2 p q) ((contrEquiv1 dot_S10000x256_S256x256_S10000x256_1_0_0_1_n_n 256 rfl rfl).symm k) = ix2 k q := funext fun a => Fin.ext (by
    match a with
    | ⟨0, _⟩ => exact (rhs_xw_0 _ _).trans hk
    | ⟨1, _⟩ => exact rhs_xw_1 _ _)
  rw [el, er]

/-! ## The product of an adjacency band with a full-height array: [400, 10000] · [10000, 256] -/

/-- The left factor's row is the output's row. -/
theorem lhs_ah_0 (i : S400x256.Idx) (q : dot_S400x10000_S10000x256_S400x256_1_0_0_1_n_n.contr.Idx) :
    (dot_S400x10000_S10000x256_S400x256_1_0_0_1_n_n.lhsIdx i q 0).val = (i 0).val := by
  unfold DotDims.lhsIdx
  rw [dif_neg (show ¬(0 : Fin S400x10000.rank) ∈ dot_S400x10000_S10000x256_S400x256_1_0_0_1_n_n.lhsBatch by decide), dif_pos (show (0 : Fin S400x10000.rank) ∈ dot_S400x10000_S10000x256_S400x256_1_0_0_1_n_n.lhsNonContracting by decide)]
  rfl
/-- The left factor's column is the contraction position. -/
theorem lhs_ah_1 (i : S400x256.Idx) (q : dot_S400x10000_S10000x256_S400x256_1_0_0_1_n_n.contr.Idx) :
    (dot_S400x10000_S10000x256_S400x256_1_0_0_1_n_n.lhsIdx i q 1).val = (q ⟨0, by decide⟩).val :=
  dot_S400x10000_S10000x256_S400x256_1_0_0_1_n_n.lhsIdx_val_of_single rfl i q
/-- The right factor's row is the contraction position. -/
theorem rhs_ah_0 (i : S400x256.Idx) (q : dot_S400x10000_S10000x256_S400x256_1_0_0_1_n_n.contr.Idx) :
    (dot_S400x10000_S10000x256_S400x256_1_0_0_1_n_n.rhsIdx i q 0).val = (q ⟨0, by decide⟩).val :=
  dot_S400x10000_S10000x256_S400x256_1_0_0_1_n_n.rhsIdx_val_of_single rfl i q
/-- The right factor's column is the output's column. -/
theorem rhs_ah_1 (i : S400x256.Idx) (q : dot_S400x10000_S10000x256_S400x256_1_0_0_1_n_n.contr.Idx) :
    (dot_S400x10000_S10000x256_S400x256_1_0_0_1_n_n.rhsIdx i q 1).val = (i 1).val := by
  unfold DotDims.rhsIdx
  rw [dif_neg (show ¬(1 : Fin S10000x256.rank) ∈ dot_S400x10000_S10000x256_S400x256_1_0_0_1_n_n.rhsBatch by decide), dif_pos (show (1 : Fin S10000x256.rank) ∈ dot_S400x10000_S10000x256_S400x256_1_0_0_1_n_n.rhsNonContracting by decide)]
  rfl

/-- Entry `(p, q)` of `a · h`, accumulated into zero, is `∑ l, a p l · h l q` over the 10000 nodes. -/
theorem mm_a_h (a : Vec Ideal S400x10000 .f32) (h : Vec Ideal S10000x256 .f32) (p : Fin 400) (q : Fin 256) :
    matmul (F := Ideal) (φ₁ := .f32) (φ₂ := .f32) dot_S400x10000_S10000x256_S400x256_1_0_0_1_n_n none a h (constant S400x256 .f32 0x00000000#32) (ix2 p q)
      = ∑ l : Fin 10000, a (ix2 p l) * h (ix2 l q) := by
  refine (Ideal.matmul_constant_zero_apply dot_S400x10000_S10000x256_S400x256_1_0_0_1_n_n none a h (ix2 p q)).trans ?_
  rw [← Equiv.sum_comp (contrEquiv1 dot_S400x10000_S10000x256_S400x256_1_0_0_1_n_n 10000 rfl rfl).symm]
  refine Finset.sum_congr rfl fun k _ => ?_
  have hk := contrEquiv1_symm_val dot_S400x10000_S10000x256_S400x256_1_0_0_1_n_n 10000 rfl rfl k
  have el : dot_S400x10000_S10000x256_S400x256_1_0_0_1_n_n.lhsIdx (ix2 p q) ((contrEquiv1 dot_S400x10000_S10000x256_S400x256_1_0_0_1_n_n 10000 rfl rfl).symm k) = ix2 p k := funext fun a => Fin.ext (by
    match a with
    | ⟨0, _⟩ => exact lhs_ah_0 _ _
    | ⟨1, _⟩ => exact (lhs_ah_1 _ _).trans hk)
  have er : dot_S400x10000_S10000x256_S400x256_1_0_0_1_n_n.rhsIdx (ix2 p q) ((contrEquiv1 dot_S400x10000_S10000x256_S400x256_1_0_0_1_n_n 10000 rfl rfl).symm k) = ix2 k q := funext fun a => Fin.ext (by
    match a with
    | ⟨0, _⟩ => exact (rhs_ah_0 _ _).trans hk
    | ⟨1, _⟩ => exact rhs_ah_1 _ _)
  rw [el, er]

/-! ## The product of a clamped band with the second weight matrix: [400, 256] · [256, 256] -/

/-- The left factor's row is the output's row. -/
theorem lhs_uw_0 (i : S400x256.Idx) (q : dot_S400x256_S256x256_S400x256_1_0_0_1_n_n.contr.Idx) :
    (dot_S400x256_S256x256_S400x256_1_0_0_1_n_n.lhsIdx i q 0).val = (i 0).val := by
  unfold DotDims.lhsIdx
  rw [dif_neg (show ¬(0 : Fin S400x256.rank) ∈ dot_S400x256_S256x256_S400x256_1_0_0_1_n_n.lhsBatch by decide), dif_pos (show (0 : Fin S400x256.rank) ∈ dot_S400x256_S256x256_S400x256_1_0_0_1_n_n.lhsNonContracting by decide)]
  rfl
/-- The left factor's column is the contraction position. -/
theorem lhs_uw_1 (i : S400x256.Idx) (q : dot_S400x256_S256x256_S400x256_1_0_0_1_n_n.contr.Idx) :
    (dot_S400x256_S256x256_S400x256_1_0_0_1_n_n.lhsIdx i q 1).val = (q ⟨0, by decide⟩).val :=
  dot_S400x256_S256x256_S400x256_1_0_0_1_n_n.lhsIdx_val_of_single rfl i q
/-- The right factor's row is the contraction position. -/
theorem rhs_uw_0 (i : S400x256.Idx) (q : dot_S400x256_S256x256_S400x256_1_0_0_1_n_n.contr.Idx) :
    (dot_S400x256_S256x256_S400x256_1_0_0_1_n_n.rhsIdx i q 0).val = (q ⟨0, by decide⟩).val :=
  dot_S400x256_S256x256_S400x256_1_0_0_1_n_n.rhsIdx_val_of_single rfl i q
/-- The right factor's column is the output's column. -/
theorem rhs_uw_1 (i : S400x256.Idx) (q : dot_S400x256_S256x256_S400x256_1_0_0_1_n_n.contr.Idx) :
    (dot_S400x256_S256x256_S400x256_1_0_0_1_n_n.rhsIdx i q 1).val = (i 1).val := by
  unfold DotDims.rhsIdx
  rw [dif_neg (show ¬(1 : Fin S256x256.rank) ∈ dot_S400x256_S256x256_S400x256_1_0_0_1_n_n.rhsBatch by decide), dif_pos (show (1 : Fin S256x256.rank) ∈ dot_S400x256_S256x256_S400x256_1_0_0_1_n_n.rhsNonContracting by decide)]
  rfl

/-- Entry `(p, q)` of `u · w`, accumulated into zero, is `∑ k, u p k · w k q`. -/
theorem mm_u_w (u : Vec Ideal S400x256 .f32) (w : Vec Ideal S256x256 .f32) (p : Fin 400) (q : Fin 256) :
    matmul (F := Ideal) (φ₁ := .f32) (φ₂ := .f32) dot_S400x256_S256x256_S400x256_1_0_0_1_n_n none u w (constant S400x256 .f32 0x00000000#32) (ix2 p q)
      = ∑ k : Fin 256, u (ix2 p k) * w (ix2 k q) := by
  refine (Ideal.matmul_constant_zero_apply dot_S400x256_S256x256_S400x256_1_0_0_1_n_n none u w (ix2 p q)).trans ?_
  rw [← Equiv.sum_comp (contrEquiv1 dot_S400x256_S256x256_S400x256_1_0_0_1_n_n 256 rfl rfl).symm]
  refine Finset.sum_congr rfl fun k _ => ?_
  have hk := contrEquiv1_symm_val dot_S400x256_S256x256_S400x256_1_0_0_1_n_n 256 rfl rfl k
  have el : dot_S400x256_S256x256_S400x256_1_0_0_1_n_n.lhsIdx (ix2 p q) ((contrEquiv1 dot_S400x256_S256x256_S400x256_1_0_0_1_n_n 256 rfl rfl).symm k) = ix2 p k := funext fun a => Fin.ext (by
    match a with
    | ⟨0, _⟩ => exact lhs_uw_0 _ _
    | ⟨1, _⟩ => exact (lhs_uw_1 _ _).trans hk)
  have er : dot_S400x256_S256x256_S400x256_1_0_0_1_n_n.rhsIdx (ix2 p q) ((contrEquiv1 dot_S400x256_S256x256_S400x256_1_0_0_1_n_n 256 rfl rfl).symm k) = ix2 k q := funext fun a => Fin.ext (by
    match a with
    | ⟨0, _⟩ => exact (rhs_uw_0 _ _).trans hk
    | ⟨1, _⟩ => exact rhs_uw_1 _ _)
  rw [el, er]

/-! ## The three stored values at an index -/

/-- The offsets of a whole-buffer rectangle of rank 2 are all zero. -/
theorem offsets_zero2 : (![0, 0] : Fin 2 → Nat) = fun _ => 0 :=
  funext fun a => by match a with | ⟨0, _⟩ => rfl | ⟨1, _⟩ => rfl

/-- An adjacency band times a full-height array, clamped below at zero, at `(p, k)`: the larger of the sum and zero. -/
theorem clamp_apply (a : Vec Ideal S400x10000 .f32) (h : Vec Ideal S10000x256 .f32) (p : Fin 400) (k : Fin 256) :
    maximumf (matmul (F := Ideal) (φ₁ := .f32) (φ₂ := .f32) dot_S400x10000_S10000x256_S400x256_1_0_0_1_n_n none a h (constant S400x256 .f32 0x00000000#32))
        (broadcast S400x256 (Scalar.ofBits (F := Ideal) .f32 0x00000000#32)) (ix2 p k)
      = max (∑ l : Fin 10000, a (ix2 p l) * h (ix2 l k)) Cert.Spec.zero := by
  refine (maximumf_apply _ _ (ix2 p k)).trans ?_
  rw [mm_a_h]
  rfl

/-- The value the first point of layer 1 stores, `x · W1` plus the row `b1` spread over all rows, at `(r, j)`. -/
theorem hidden_pay_apply (x : Vec Ideal S10000x256 .f32) (w1 : Vec Ideal S256x256 .f32) (b1 : Vec Ideal S1x256 .f32) (r : Fin 10000) (j : Fin 256) :
    k0_pay1 (F := Ideal) x w1 b1 (ix2 r j) = (∑ k : Fin 256, x (ix2 r k) * w1 (ix2 k j)) + b1 (ix2 0 j) := by
  unfold k0_pay1
  rw [shapeCast_self, shapeCast_self]
  refine (addf_apply _ _ (ix2 r j)).trans ?_
  rw [mm_x_w, broadcastTo_1b_ab_apply]

/-- The value every point of layer 1 stores, the clamped band times `W2` plus the row `b2` spread over the band's
    rows, at `(p, j)`. -/
theorem layer1_pay_apply (a : Vec Ideal S400x10000 .f32) (h : Vec Ideal S10000x256 .f32) (w2 : Vec Ideal S256x256 .f32) (b2 : Vec Ideal S1x256 .f32) (p : Fin 400) (j : Fin 256) :
    k0_pay2 (F := Ideal) a h w2 b2 (ix2 p j)
      = (∑ k : Fin 256, max (∑ l : Fin 10000, a (ix2 p l) * h (ix2 l k)) Cert.Spec.zero * w2 (ix2 k j)) + b2 (ix2 0 j) := by
  unfold k0_pay2
  rw [shapeCast_self]
  refine (addf_apply _ _ (ix2 p j)).trans ?_
  rw [mm_u_w, broadcastTo_1b_ab_apply]
  refine congrArg (· + b2 (ix2 0 j)) (Finset.sum_congr rfl fun k _ => ?_)
  rw [clamp_apply]

/-- The value every point of layer 2 stores, the clamped band, at `(p, j)`. -/
theorem layer2_pay_apply (a : Vec Ideal S400x10000 .f32) (h : Vec Ideal S10000x256 .f32) (p : Fin 400) (j : Fin 256) :
    k1_pay1 (F := Ideal) a h (ix2 p j) = max (∑ l : Fin 10000, a (ix2 p l) * h (ix2 l j)) Cert.Spec.zero := by
  unfold k1_pay1
  rw [shapeCast_self]
  exact clamp_apply a h p j

/-! ## The three buffers at an index

One store through the whole buffer leaves its value, and a load through the whole buffer reads the array itself. -/

/-- The hidden activations at row `r`, column `j`: `(∑ k, x r k · W1 k j) + b1 j`. -/
theorem hid0_apply (x : Vec Ideal S10000x256 .f32) (w1 : Vec Ideal S256x256 .f32) (b1 : Vec Ideal S1x256 .f32) (r : Fin 10000) (j : Fin 256) :
    hid0 (F := Ideal) x w1 b1 (ix2 r j) = (∑ k : Fin 256, x (ix2 r k) * w1 (ix2 k j)) + b1 (ix2 0 j) := by
  unfold hid0
  rw [View.canon_unit_zero offsets_zero2]
  simp only [View.ld_unit_zero (S := S10000x256) offsets_zero2, View.ld_unit_zero (S := S256x256) offsets_zero2, View.ld_unit_zero (S := S1x256) offsets_zero2]
  exact hidden_pay_apply x w1 b1 r j

/-- Layer 1's band at row `p` of the band, column `j`: `(∑ k, max (∑ l, a p l · h l k) 0 · W2 k j) + b2 j`. -/
theorem band0_apply (a : Vec Ideal S400x10000 .f32) (h : Vec Ideal S10000x256 .f32) (w2 : Vec Ideal S256x256 .f32) (b2 : Vec Ideal S1x256 .f32) (p : Fin 400) (j : Fin 256) :
    band0 (F := Ideal) a h w2 b2 (ix2 p j)
      = (∑ k : Fin 256, max (∑ l : Fin 10000, a (ix2 p l) * h (ix2 l k)) Cert.Spec.zero * w2 (ix2 k j)) + b2 (ix2 0 j) := by
  unfold band0
  rw [View.canon_unit_zero offsets_zero2]
  simp only [View.ld_unit_zero (S := S400x10000) offsets_zero2, View.ld_unit_zero (S := S10000x256) offsets_zero2, View.ld_unit_zero (S := S256x256) offsets_zero2, View.ld_unit_zero (S := S1x256) offsets_zero2]
  exact layer1_pay_apply a h w2 b2 p j

/-- Layer 2's band at row `p` of the band, column `j`: `max (∑ l, a p l · h l j) 0`. -/
theorem band1_apply (a : Vec Ideal S400x10000 .f32) (h : Vec Ideal S10000x256 .f32) (p : Fin 400) (j : Fin 256) :
    band1 (F := Ideal) a h (ix2 p j) = max (∑ l : Fin 10000, a (ix2 p l) * h (ix2 l j)) Cert.Spec.zero := by
  unfold band1
  rw [View.canon_unit_zero offsets_zero2]
  simp only [View.ld_unit_zero (S := S400x10000) offsets_zero2, View.ld_unit_zero (S := S10000x256) offsets_zero2]
  exact layer2_pay_apply a h p j

end Cert.KernelIdeal.Hand

end
-- ==== Proof.KI.Final0.lean ====
/-
  Layer 1's result array after its region.

  The region walks 25 points. Point `t` multiplies rows `400·t … 400·t + 399` of the adjacency matrix by the hidden
  activations `x · W1 + b1`, clamps at zero, multiplies by `W2`, adds the row `b2`, and writes the 400 × 256 band back
  to rows `400·t … 400·t + 399` of the result array. The features, the two weight matrices and the two bias rows are
  whole-array windows: their block at any point is the array itself. The adjacency window's block at point `t` and the
  result window's block at point `t` sit at the same rows, so what point `t` writes back is exactly rows
  `400·t … 400·t + 399` of the one function

      lin r j = (∑ k, max (∑ l, adj r l · hid l k) 0 · W2 k j) + b2 j,     hid l k = (∑ k', x l k' · W1 k' k) + b1 k.

  The 25 bands tile the 10000 rows (row `r` belongs to point `r / 400`) over all 256 columns, so the array ends
  holding `lin` everywhere.
-/
import proofs.«166435_g12077448036904_cont_main3_85_3_alg».proof.Proof.KI.Dat0
import proofs.«166435_g12077448036904_cont_main3_85_3_alg».proof.Proof.KI.PayIdx
import proofs.«166435_g12077448036904_cont_main3_85_3_alg».proof.Proof.Spec
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.ValueIdx
open Idealize.SL.Sem
open Idealize.ShloMosaic.Pipeline (Dat Cfg Window)
open Cert.KernelIdeal Cert.KernelIdeal.Gen

-- the TensorCore's buffer contents when the region is entered, on the extended reals
variable (V : (c : Dev nD) → (b : Ref sig .tc) → Buf (Elt Ideal) ((c : Thread nD τ).loc b))

/-! ## Where each window's block sits -/

/-- The block indices of the seven windows at every one of the 25 points: the adjacency window and the result window
    are at block row `t`, block column 0; every other window stays at block (0, 0). -/
theorem block_indices0 : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ t.val ≤ 24 :=
  (by decide +kernel : ∀ t : Fin grid0.N, _)

/-! ## The input blocks, read off their arrays -/

/-- The features' block at any point is the features. -/
theorem features_block0 (c : Dev nD) (t : Fin cfg0.N) (r : Fin 10000) (k : Fin 256) :
    (iblk0 V c 0 t : Vec Ideal S10000x256 .f32) (ix2 r k) = (V c main_arg0 : S10000x256.Idx → EReal) (ix2 r k) := by
  obtain ⟨e0, e1, -⟩ := block_indices0 t
  unfold iblk0
  rw [View.read_apply]
  show V c main_arg0 (((cfg0.win 0).blk t).view.emb (ix2 r k)) = V c main_arg0 (ix2 r k)
  congr 1
  funext a
  apply Fin.ext
  match a with
  | ⟨0, _⟩ => show win0_0.index t (0 : Fin 2) * 10000 + 1 * r.val = r.val; omega
  | ⟨1, _⟩ => show win0_0.index t (1 : Fin 2) * 256 + 1 * k.val = k.val; omega

/-- The adjacency window's block at point `t` is rows `400·t … 400·t + 399` of the adjacency matrix. -/
theorem adjacency_block0 (c : Dev nD) (t : Fin cfg0.N) (p : Fin 400) (l : Fin 10000) (r : Fin 10000) (hr : r.val = t.val * 400 + p.val) :
    (iblk0 V c 1 t : Vec Ideal S400x10000 .f32) (ix2 p l) = (V c main_arg1 : S10000x10000.Idx → EReal) (ix2 r l) := by
  obtain ⟨-, -, e0, e1, -⟩ := block_indices0 t
  unfold iblk0
  rw [View.read_apply]
  show V c main_arg1 (((cfg0.win 1).blk t).view.emb (ix2 p l)) = V c main_arg1 (ix2 r l)
  congr 1
  funext a
  apply Fin.ext
  match a with
  | ⟨0, _⟩ => show win0_1.index t (0 : Fin 2) * 400 + 1 * p.val = r.val; omega
  | ⟨1, _⟩ => show win0_1.index t (1 : Fin 2) * 10000 + 1 * l.val = l.val; omega

/-- The first weight matrix's block at any point is the matrix. -/
theorem weights1_block0 (c : Dev nD) (t : Fin cfg0.N) (k : Fin 256) (j : Fin 256) :
    (iblk0 V c 2 t : Vec Ideal S256x256 .f32) (ix2 k j) = (V c main_arg2 : S256x256.Idx → EReal) (ix2 k j) := by
  obtain ⟨-, -, -, -, e0, e1, -⟩ := block_indices0 t
  unfold iblk0
  rw [View.read_apply]
  show V c main_arg2 (((cfg0.win 2).blk t).view.emb (ix2 k j)) = V c main_arg2 (ix2 k j)
  congr 1
  funext a
  apply Fin.ext
  match a with
  | ⟨0, _⟩ => show win0_2.index t (0 : Fin 2) * 256 + 1 * k.val = k.val; omega
  | ⟨1, _⟩ => show win0_2.index t (1 : Fin 2) * 256 + 1 * j.val = j.val; omega

/-- The first bias row's block at any point is the row. -/
theorem bias1_block0 (c : Dev nD) (t : Fin cfg0.N) (j : Fin 256) :
    (iblk0 V c 3 t : Vec Ideal S1x256 .f32) (ix2 0 j) = (V c main_v0 : S1x256.Idx → EReal) (ix2 0 j) := by
  obtain ⟨-, -, -, -, -, -, e0, e1, -⟩ := block_indices0 t
  unfold iblk0
  rw [View.read_apply]
  show V c main_v0 (((cfg0.win 3).blk t).view.emb (ix2 0 j)) = V c main_v0 (ix2 0 j)
  congr 1
  funext a
  apply Fin.ext
  match a with
  | ⟨0, _⟩ => show win0_3.index t (0 : Fin 2) * 1 + 1 * 0 = 0; omega
  | ⟨1, _⟩ => show win0_3.index t (1 : Fin 2) * 256 + 1 * j.val = j.val; omega

/-- The second weight matrix's block at any point is the matrix. -/
theorem weights2_block0 (c : Dev nD) (t : Fin cfg0.N) (k : Fin 256) (j : Fin 256) :
    (iblk0 V c 4 t : Vec Ideal S256x256 .f32) (ix2 k j) = (V c main_arg4 : S256x256.Idx → EReal) (ix2 k j) := by
  obtain ⟨-, -, -, -, -, -, -, -, e0, e1, -⟩ := block_indices0 t
  unfold iblk0
  rw [View.read_apply]
  show V c main_arg4 (((cfg0.win 4).blk t).view.emb (ix2 k j)) = V c main_arg4 (ix2 k j)
  congr 1
  funext a
  apply Fin.ext
  match a with
  | ⟨0, _⟩ => show win0_4.index t (0 : Fin 2) * 256 + 1 * k.val = k.val; omega
  | ⟨1, _⟩ => show win0_4.index t (1 : Fin 2) * 256 + 1 * j.val = j.val; omega

/-- The second bias row's block at any point is the row. -/
theorem bias2_block0 (c : Dev nD) (t : Fin cfg0.N) (j : Fin 256) :
    (iblk0 V c 5 t : Vec Ideal S1x256 .f32) (ix2 0 j) = (V c main_v1 : S1x256.Idx → EReal) (ix2 0 j) := by
  obtain ⟨-, -, -, -, -, -, -, -, -, -, e0, e1, -⟩ := block_indices0 t
  unfold iblk0
  rw [View.read_apply]
  show V c main_v1 (((cfg0.win 5).blk t).view.emb (ix2 0 j)) = V c main_v1 (ix2 0 j)
  congr 1
  funext a
  apply Fin.ext
  match a with
  | ⟨0, _⟩ => show win0_5.index t (0 : Fin 2) * 1 + 1 * 0 = 0; omega
  | ⟨1, _⟩ => show win0_5.index t (1 : Fin 2) * 256 + 1 * j.val = j.val; omega

/-- Entry `(p, j)` of the result window's block at point `t` sits at row `400·t + p`, column `j` of the result array. -/
theorem result_block_emb0 (t : Fin cfg0.N) (p : Fin 400) (j : Fin 256) (r : Fin 10000) (hr : r.val = t.val * 400 + p.val) :
    ((cfg0.win 6).blk t).view.emb (ix2 p j) = (ix2 r j : S10000x256.Idx) := by
  obtain ⟨-, -, -, -, -, -, -, -, -, -, -, -, e0, e1, -⟩ := block_indices0 t
  funext a
  apply Fin.ext
  match a with
  | ⟨0, _⟩ => show win0_6.index t (0 : Fin 2) * 400 + 1 * p.val = r.val; omega
  | ⟨1, _⟩ => show win0_6.index t (1 : Fin 2) * 256 + 1 * j.val = j.val; omega

/-! ## The hidden activations the scratch buffer holds -/

/-- The hidden activations kept between points are `x · W1 + b1` of the arrays as the region finds them. -/
theorem hidV_apply (c : Dev nD) (x : Cert.Spec.SX.Idx → EReal) (w1 : Cert.Spec.SW.Idx → EReal) (b1 : Cert.Spec.SB.Idx → EReal)
    (hx : V c main_arg0 = x) (hw1 : V c main_arg2 = w1) (hb1 : ∀ j : Fin 256, V c main_v0 (ix2 0 j) = b1 (ix1 j))
    (r : Fin 10000) (k : Fin 256) :
    hidV V c (ix2 r k) = Cert.Spec.hid x w1 b1 r k := by
  unfold hidV
  refine (hid0_apply (iblk0 V c 0 t0) (iblk0 V c 2 t0) (iblk0 V c 3 t0) r k).trans ?_
  unfold Cert.Spec.hid Cert.Spec.dense
  refine congrArg₂ (· + ·) (Finset.sum_congr rfl fun k' _ => ?_) ?_
  · exact congrArg₂ (· * ·) ((features_block0 V c t0 r k').trans (congrFun hx (ix2 r k'))) ((weights1_block0 V c t0 k' k).trans (congrFun hw1 (ix2 k' k)))
  · exact (bias1_block0 V c t0 k).trans (hb1 k)

/-! ## What a point writes back -/

/-- Layer 1's result as one array. -/
abbrev layer1_array (x : Cert.Spec.SX.Idx → EReal) (adj : Cert.Spec.SA.Idx → EReal) (w1 : Cert.Spec.SW.Idx → EReal) (b1 : Cert.Spec.SB.Idx → EReal)
    (w2 : Cert.Spec.SW.Idx → EReal) (b2 : Cert.Spec.SB.Idx → EReal) : S10000x256.Idx → EReal :=
  fun i => Cert.Spec.lin x adj w1 b1 w2 b2 (i 0) (i 1)

/-- Point `t` writes back rows `400·t … 400·t + 399` of layer 1's result. -/
theorem written_back0 (c : Dev nD)
    (x : Cert.Spec.SX.Idx → EReal) (adj : Cert.Spec.SA.Idx → EReal) (w1 : Cert.Spec.SW.Idx → EReal) (b1 : Cert.Spec.SB.Idx → EReal)
    (w2 : Cert.Spec.SW.Idx → EReal) (b2 : Cert.Spec.SB.Idx → EReal)
    (hx : V c main_arg0 = x) (hadj : V c main_arg1 = adj) (hw1 : V c main_arg2 = w1)
    (hb1 : ∀ j : Fin 256, V c main_v0 (ix2 0 j) = b1 (ix1 j))
    (hw2 : V c main_arg4 = w2) (hb2 : ∀ j : Fin 256, V c main_v1 (ix2 0 j) = b2 (ix1 j)) (t : Fin cfg0.N) :
    (dat0 (F := Ideal) V c).flushed 6 t = ((cfg0.win 6).blk t).view.read (Elt Ideal) (layer1_array x adj w1 b1 w2 b2) := by
  show (cfg0.win 6).cut (grid0.coords t) ((dat0 (F := Ideal) V c).after 6 t) = _
  rw [after0_6]
  funext y
  obtain ⟨p, j, rfl⟩ : ∃ (p : Fin 400) (j : Fin 256), y = ix2 p j := ⟨y 0, y 1, eq_ix2 y⟩
  have ht : t.val ≤ 24 := (block_indices0 t).2.2.2.2.2.2.2.2.2.2.2.2.2.2
  have hp : p.val < 400 := p.isLt
  rw [View.read_apply, result_block_emb0 t p j ⟨t.val * 400 + p.val, by omega⟩ rfl]
  show band0 (iblk0 V c 1 t) (hidV V c) (iblk0 V c 4 t) (iblk0 V c 5 t) (ix2 p j)
    = Cert.Spec.lin x adj w1 b1 w2 b2 ⟨t.val * 400 + p.val, by omega⟩ j
  refine (band0_apply (iblk0 V c 1 t) (hidV V c) (iblk0 V c 4 t) (iblk0 V c 5 t) p j).trans ?_
  unfold Cert.Spec.lin Cert.Spec.dense Cert.Spec.agg
  refine congrArg₂ (· + ·) (Finset.sum_congr rfl fun k _ => ?_) ?_
  · refine congrArg₂ (· * ·) (congrArg (max · Cert.Spec.zero) (Finset.sum_congr rfl fun l _ => ?_)) ((weights2_block0 V c t k j).trans (congrFun hw2 (ix2 k j)))
    exact congrArg₂ (· * ·) ((adjacency_block0 V c t p l ⟨t.val * 400 + p.val, by omega⟩ rfl).trans (congrFun hadj _)) (hidV_apply V c x w1 b1 hx hw1 hb1 l k)
  · exact (bias2_block0 V c t j).trans (hb2 j)

/-! ## The bands tile the array -/

/-- An entry of the result array is in point `t`'s band iff its row is among `400·t … 400·t + 399` (and its column among all 256). -/
theorem mem_band0 (t : Fin cfg0.N) (i : S10000x256.Idx) :
    i ∈ ((cfg0.win 6).blk t).view.set ↔ ∀ a : Fin 2, win0_6.index t a * S400x256.size a ≤ (i a).val ∧ (i a).val < win0_6.index t a * S400x256.size a + S400x256.size a := by
  show i ∈ ((View.whole main_v2).slice (win0_6.rect t)).set ↔ _
  rw [View.set_slice_whole, Rect.mem_set_unit]
  exact Iff.rfl

/-- Every entry of the result array is in some point's band: row `r` in that of point `r / 400`. -/
theorem bands_cover0 (i : S10000x256.Idx) :
    ∃ t : Fin cfg0.N, (cfg0.win 6).flush t = true ∧ i ∈ ((cfg0.win 6).blk t).view.set := by
  have hN : cfg0.N = 25 := N_0
  have hi0 : (i 0).val < 10000 := (i 0).isLt
  have hi1 : (i 1).val < 256 := (i 1).isLt
  refine ⟨⟨(i 0).val / 400, by omega⟩, flush0_6 _, ?_⟩
  rw [mem_band0]
  obtain ⟨-, -, -, -, -, -, -, -, -, -, -, -, e0, e1, -⟩ := block_indices0 ⟨(i 0).val / 400, by omega⟩
  intro a
  match a with
  | ⟨0, _⟩ =>
    show win0_6.index ⟨(i 0).val / 400, _⟩ (0 : Fin 2) * 400 ≤ (i 0).val ∧ (i 0).val < win0_6.index ⟨(i 0).val / 400, _⟩ (0 : Fin 2) * 400 + 400
    rw [e0]; show (i 0).val / 400 * 400 ≤ (i 0).val ∧ (i 0).val < (i 0).val / 400 * 400 + 400; omega
  | ⟨1, _⟩ =>
    show win0_6.index ⟨(i 0).val / 400, _⟩ (1 : Fin 2) * 256 ≤ (i 1).val ∧ (i 1).val < win0_6.index ⟨(i 0).val / 400, _⟩ (1 : Fin 2) * 256 + 256
    rw [e1]; omega

/-! ## The array after the region -/

/-- After the region the result array holds layer 1's result `relu(adj · (x · W1 + b1)) · W2 + b2` everywhere. -/
theorem final0 (c : Dev nD)
    (x : Cert.Spec.SX.Idx → EReal) (adj : Cert.Spec.SA.Idx → EReal) (w1 : Cert.Spec.SW.Idx → EReal) (b1 : Cert.Spec.SB.Idx → EReal)
    (w2 : Cert.Spec.SW.Idx → EReal) (b2 : Cert.Spec.SB.Idx → EReal)
    (hx : V c main_arg0 = x) (hadj : V c main_arg1 = adj) (hw1 : V c main_arg2 = w1)
    (hb1 : ∀ j : Fin 256, V c main_v0 (ix2 0 j) = b1 (ix1 j))
    (hw2 : V c main_arg4 = w2) (hb2 : ∀ j : Fin 256, V c main_v1 (ix2 0 j) = b2 (ix1 j)) :
    (dat0 (F := Ideal) V c).arrAt 6 cfg0.N = fun i => Cert.Spec.lin x adj w1 b1 w2 b2 (i 0) (i 1) :=
  (dat0 (F := Ideal) V c).arrAt_eq_of_cover 6 (layer1_array x adj w1 b1 w2 b2)
    (fun t _ => written_back0 V c x adj w1 b1 w2 b2 hx hadj hw1 hb1 hw2 hb2 t) bands_cover0

end Cert.KernelIdeal.Hand

end
-- ==== Proof.KI.Final1.lean ====
/-
  The result array after layer 2's region.

  Layer 2 has 25 points. At point `t` it multiplies rows `400 t … 400 t + 399` of the adjacency matrix by the whole of
  layer 1's result, clamps at zero, and writes the 400 × 256 band back to rows `400 t … 400 t + 399` of the result.
  Row `p` of the band is therefore row `r = 400 t + p` of `max (adj · h) 0`, and since `25 · 400 = 10000` the bands
  tile the result: row `r` lies in the band of point `r / 400`. So the array ends holding `max (adj · h) 0` everywhere.
-/
import proofs.«166435_g12077448036904_cont_main3_85_3_alg».proof.Proof.KI.Dat1
import proofs.«166435_g12077448036904_cont_main3_85_3_alg».proof.Proof.KI.PayIdx
import proofs.«166435_g12077448036904_cont_main3_85_3_alg».proof.Proof.Spec
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

/-! ## Where the blocks sit -/

/-- The block indices over the 25 points: the adjacency band and the result band are at block `t` of axis 0 and
    block 0 of axis 1; layer 1's result is one block, at 0 on both axes. -/
theorem blockIdx1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ t.val ≤ 24 :=
  (by decide +kernel : ∀ t : Fin grid1.N, _)

-- the TensorCore's buffer contents when the region is entered
variable (V : (c : Dev nD) → (b : Ref sig .tc) → Buf (Elt Ideal) ((c : Thread nD τ).loc b))

/-- Row `p` of the adjacency band at point `t` is row `400 t + p` of the matrix. -/
theorem adjBand_apply (c : Dev nD) (t : Fin cfg1.N) (p : Fin 400) (l : Fin 10000) (r : Fin 10000)
    (hr : r.val = t.val * 400 + p.val) :
    iblk1 V c 0 t (ix2 p l) = V c main_arg1 (ix2 r l) := by
  obtain ⟨e0, e1, -, -, -, -, -⟩ := blockIdx1 t
  show V c main_arg1 (((cfg1.win 0).blk t).view.emb (ix2 p l)) = V c main_arg1 (ix2 r l)
  refine congrArg _ (funext fun a => Fin.ext ?_)
  match a with
  | ⟨0, _⟩ => show win1_0.index t (0 : Fin 2) * 400 + 1 * p.val = r.val; omega
  | ⟨1, _⟩ => show win1_0.index t (1 : Fin 2) * 10000 + 1 * l.val = l.val; omega

/-- Layer 1's result is read whole at every point. -/
theorem prevWhole_apply (c : Dev nD) (t : Fin cfg1.N) (l : Fin 10000) (j : Fin 256) :
    iblk1 V c 1 t (ix2 l j) = V c main_v2 (ix2 l j) := by
  obtain ⟨-, -, e2, e3, -, -, -⟩ := blockIdx1 t
  show V c main_v2 (((cfg1.win 1).blk t).view.emb (ix2 l j)) = V c main_v2 (ix2 l j)
  refine congrArg _ (funext fun a => Fin.ext ?_)
  match a with
  | ⟨0, _⟩ => show win1_1.index t (0 : Fin 2) * 10000 + 1 * l.val = l.val; omega
  | ⟨1, _⟩ => show win1_1.index t (1 : Fin 2) * 256 + 1 * j.val = j.val; omega

/-- Entry `(p, j)` of the result band at point `t` sits at `(400 t + p, j)` of the result. -/
theorem outBand_emb (t : Fin cfg1.N) (p : Fin 400) (j : Fin 256) (r : Fin 10000) (hr : r.val = t.val * 400 + p.val) :
    ((cfg1.win 2).blk t).view.emb (ix2 p j) = ix2 r j := by
  obtain ⟨-, -, -, -, e4, e5, -⟩ := blockIdx1 t
  refine funext fun a => Fin.ext ?_
  match a with
  | ⟨0, _⟩ => show win1_2.index t (0 : Fin 2) * 400 + 1 * p.val = r.val; omega
  | ⟨1, _⟩ => show win1_2.index t (1 : Fin 2) * 256 + 1 * j.val = j.val; omega

/-! ## What a point writes back -/

/-- The aggregation `max (adj · h) 0` as an array. -/
abbrev aggArr (adj : Cert.Spec.SA.Idx → EReal) (h : Fin 10000 → Fin 256 → EReal) : S10000x256.Idx → EReal :=
  fun i => Cert.Spec.agg adj h (i 0) (i 1)

/-- Point `t` writes back band `t` of the aggregation. -/
theorem flushed1 (c : Dev nD) (adj : Cert.Spec.SA.Idx → EReal) (h : Fin 10000 → Fin 256 → EReal)
    (hadj : V c main_arg1 = adj) (hh : ∀ (r : Fin 10000) (j : Fin 256), V c main_v2 (ix2 r j) = h r j) (t : Fin cfg1.N) :
    (dat1 (F := Ideal) V c).flushed 2 t = ((cfg1.win 2).blk t).view.read (Elt Ideal) (aggArr adj h) := by
  show (cfg1.win 2).cut (grid1.coords t) ((dat1 (F := Ideal) V c).after 2 t) = _
  rw [after1_2]
  funext y
  obtain ⟨p, j, rfl⟩ : ∃ (p : Fin 400) (j : Fin 256), y = ix2 p j := ⟨y 0, y 1, eq_ix2 y⟩
  have ht : t.val ≤ 24 := (blockIdx1 t).2.2.2.2.2.2
  have hp : p.val < 400 := p.isLt
  let r : Fin 10000 := ⟨t.val * 400 + p.val, by omega⟩
  show band1 (iblk1 V c 0 t) (iblk1 V c 1 t) (ix2 p j) = aggArr adj h (((cfg1.win 2).blk t).view.emb (ix2 p j))
  rw [outBand_emb t p j r rfl]
  refine (band1_apply _ _ p j).trans ?_
  show _ = max (∑ l : Fin 10000, adj (ix2 r l) * h l j) Cert.Spec.zero
  refine congrArg (fun s => max s Cert.Spec.zero) (Finset.sum_congr rfl fun l _ => ?_)
  rw [adjBand_apply V c t p l r rfl, prevWhole_apply V c t l j, hadj, hh]

/-! ## The bands tile the result -/

/-- An index of the result is in point `t`'s band iff each coordinate is in the band's range on its axis. -/
theorem mem_outBand (t : Fin cfg1.N) (i : S10000x256.Idx) :
    i ∈ ((cfg1.win 2).blk t).view.set ↔ ∀ a : Fin 2, win1_2.index t a * S400x256.size a ≤ (i a).val ∧ (i a).val < win1_2.index t a * S400x256.size a + S400x256.size a := by
  show i ∈ ((View.whole main_v3).slice (win1_2.rect t)).set ↔ _
  rw [View.set_slice_whole, Rect.mem_set_unit]
  exact Iff.rfl

/-- Row `r` lies in the band of point `r / 400`. -/
theorem outBand_cover (i : S10000x256.Idx) :
    ∃ t : Fin cfg1.N, (cfg1.win 2).flush t = true ∧ i ∈ ((cfg1.win 2).blk t).view.set := by
  have hi0 : (i 0).val < 10000 := (i 0).isLt
  have hi1 : (i 1).val < 256 := (i 1).isLt
  have hN : grid1.N = 25 := N_1
  let t : Fin cfg1.N := ⟨(i 0).val / 400, by show (i 0).val / 400 < grid1.N; omega⟩
  obtain ⟨-, -, -, -, e4, e5, -⟩ := blockIdx1 t
  have ht : t.val = (i 0).val / 400 := rfl
  refine ⟨t, flush1_2 t, ?_⟩
  rw [mem_outBand]
  intro a
  match a with
  | ⟨0, _⟩ => show win1_2.index t (0 : Fin 2) * 400 ≤ (i 0).val ∧ (i 0).val < win1_2.index t (0 : Fin 2) * 400 + 400; omega
  | ⟨1, _⟩ => show win1_2.index t (1 : Fin 2) * 256 ≤ (i 1).val ∧ (i 1).val < win1_2.index t (1 : Fin 2) * 256 + 256; omega

/-! ## The array -/

/-- After the region the result array holds `max (adj · h) 0`, row by row and column by column. -/
theorem final1 (c : Dev nD)
    (adj : Cert.Spec.SA.Idx → EReal) (h : Fin 10000 → Fin 256 → EReal)
    (hadj : V c main_arg1 = adj) (hh : ∀ (r : Fin 10000) (j : Fin 256), V c main_v2 (ix2 r j) = h r j) :
    (dat1 (F := Ideal) V c).arrAt 2 cfg1.N = fun i => Cert.Spec.agg adj h (i 0) (i 1) :=
  (dat1 (F := Ideal) V c).arrAt_eq_of_cover 2 (aggArr adj h) (fun t _ => flushed1 V c adj h hadj hh t) outBand_cover

end Cert.KernelIdeal.Hand

end
-- ==== Proof.KI.Value.lean ====
/-
  The idealized program's result, as the specification's function of its arguments.

  Reading the boundaries of the run backwards: the two reshapes write no argument and lay the bias vectors out as single
  rows, so layer 1's region finds `x`, `adj`, `W1`, `W2` as launched and the rows `b1`, `b2`; its result array is
  therefore `relu(adj · (x · W1 + b1)) · W2 + b2` entry by entry. Layer 2's region finds `adj` as launched (layer 1's
  region only read it) and that array as its second operand, so the final result is `relu(adj · ·)` of it: the
  specification's `out`.
-/
import proofs.«166435_g12077448036904_cont_main3_85_3_alg».proof.Proof.KI.Run
import proofs.«166435_g12077448036904_cont_main3_85_3_alg».proof.Proof.KI.Final0
import proofs.«166435_g12077448036904_cont_main3_85_3_alg».proof.Proof.KI.Final1
import Idealize.ShloMosaic.Lib.StableHlo.Run

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat)
open Cert.KernelIdeal Cert.KernelIdeal.Gen

variable (m : (ℓ : Loc nD τ sig) → Buf (Elt Ideal) ℓ)

/-- The reshapes write the two row buffers only: every other buffer is as launched when layer 1's region is entered. -/
theorem W1_of_ne (c : Dev nD) (b : Ref sig .tc) (h0 : b ≠ main_v0) (h1 : b ≠ main_v1) :
    W1 m c (Proc.devRef .tc b) = m ((c : Thread nD τ).loc b) :=
  (StableHlo.after_of_forall_not_mem (b := Proc.devRef .tc b) _ _ (List.forall_iff_forall_mem.mp (by
    simp only [hostOps0, List.Forall, StableHlo.reshape_writes, Finset.mem_singleton]
    exact ⟨StableHlo.devRef_ne_of_ne h0, StableHlo.devRef_ne_of_ne h1⟩))).trans rfl

/-- The first reshape lays `b1` out as one row. -/
theorem V1_row1 (c : Dev nD) (j : Fin 256) : V1 m c main_v0 (ix2 0 j) = (m ((c : Thread nD τ).loc main_arg3)) (ix1 j) := by
  have e : (V1 m c main_v0 : S1x256.Idx → EReal) = shapeCast S1x256 (m ((c : Thread nD τ).loc main_arg3)) shapeCasts_S256_S1x256 := by
    dsimp only [V1, W1, hostOps0]; after_results; rfl
  rw [e]
  exact shapeCast_apply _ _ (ix2 (0 : Fin 1) j) (ix1 j) (by
    rw [Shape.rowMajor_val_two, Shape.rowMajor_val_one]; show j.val = 0 * 256 + j.val; omega)

/-- The second reshape lays `b2` out as one row. -/
theorem V1_row2 (c : Dev nD) (j : Fin 256) : V1 m c main_v1 (ix2 0 j) = (m ((c : Thread nD τ).loc main_arg5)) (ix1 j) := by
  have e : (V1 m c main_v1 : S1x256.Idx → EReal) = shapeCast S1x256 (m ((c : Thread nD τ).loc main_arg5)) shapeCasts_S256_S1x256 := by
    dsimp only [V1, W1, hostOps0]; after_results; rfl
  rw [e]
  exact shapeCast_apply _ _ (ix2 (0 : Fin 1) j) (ix1 j) (by
    rw [Shape.rowMajor_val_two, Shape.rowMajor_val_one]; show j.val = 0 * 256 + j.val; omega)

/-- The result array after the run is the specification's function of the arguments as launched. -/
theorem result_eq (c : Dev nD) :
    (dat1 (F := Ideal) (V2 m) c).arrAt 2 cfg1.N
      = Cert.Spec.out (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  have hlin := final0 (V1 m) c (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
    (W1_of_ne m c main_arg0 (by decide) (by decide)) (W1_of_ne m c main_arg1 (by decide) (by decide))
    (W1_of_ne m c main_arg2 (by decide) (by decide)) (V1_row1 m c)
    (W1_of_ne m c main_arg4 (by decide) (by decide)) (V1_row2 m c)
  have hadj : V2 m c main_arg1 = (m ((c : Thread nD τ).loc main_arg1)) :=
    (W2_arr m c 1).trans (((dat0 (V1 m) c).arrAt_in 1 rfl _).trans ((A_eq0 (V1 m) c 1).trans
      (W1_of_ne m c main_arg1 (by decide) (by decide))))
  have hh : ∀ (r : Fin 10000) (j : Fin 256), V2 m c main_v2 (ix2 r j)
      = Cert.Spec.lin (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) r j := fun r j => by
    rw [show V2 m c main_v2 = (dat0 (V1 m) c).arrAt 6 cfg0.N from W2_arr m c 6, hlin]; rfl
  exact final1 (V2 m) c _ _ hadj hh

end Cert.KernelIdeal.Hand

end
-- ==== Proof.RefValue.lean ====
/-
  The reference program is the specification, index by index.

  The reference forms, in order: the product of the features with the first weights, the first bias stretched over the
  rows, their sum (the hidden activations); the product of the adjacency matrix with that, clamped below by zero; the
  product of the result with the second weights plus the second bias stretched over the rows; and once more the
  product of the adjacency matrix with that, clamped below by zero. On the extended reals each product's entry at
  `(r, j)` is the finite sum of the left operand's row `r` against the right operand's column `j`, the sum of two
  arrays is the entrywise sum and the clamp is the entrywise maximum. Reading each of these at `(r, j)`, innermost
  first, gives exactly the nested sums of the specification: no law of arithmetic is used, only the reading of each
  entry.
-/
import proofs.«166435_g12077448036904_cont_main3_85_3_alg».proof.Proof.Gen.ReferenceIdeal.Read
import proofs.«166435_g12077448036904_cont_main3_85_3_alg».proof.Proof.Spec
import Idealize.ShloMosaic.Lib.ValueIdx
import Idealize.ShloMosaic.Lib.Pipeline.Value
import Idealize.ShloMosaic.PureOps.Ideal.Laws

noncomputable section

namespace Cert.RefValue

open Cert.ReferenceIdeal Cert.ReferenceIdeal.Read Idealize.ShloMosaic Idealize.ShloMosaic.ValueIdx

/-! ## Where each stage reads its operands

At the index `(r, j)` of a 10000 × 256 result, a product over 256 terms reads its left operand at `(r, k)` and its
right operand at `(k, j)`; a product over the 10000 nodes reads the adjacency matrix at `(r, l)` and the other
operand at `(l, j)`; a bias row stretched over all rows is read at `j`. -/

theorem lidx_v0 (r : Fin 10000) (j k : Fin 256) : lidx_main_v0 (ix2 r j) k = ix2 r k :=
  funext fun a => Fin.ext (by match a with | ⟨0, _⟩ => rfl | ⟨1, _⟩ => rfl)

theorem ridx_v0 (r : Fin 10000) (j k : Fin 256) : ridx_main_v0 (ix2 r j) k = ix2 k j :=
  funext fun a => Fin.ext (by match a with | ⟨0, _⟩ => rfl | ⟨1, _⟩ => rfl)

theorem lidx_v4 (r : Fin 10000) (j : Fin 256) (l : Fin 10000) : lidx_main_v4 (ix2 r j) l = ix2 r l :=
  funext fun a => Fin.ext (by match a with | ⟨0, _⟩ => rfl | ⟨1, _⟩ => rfl)

theorem ridx_v4 (r : Fin 10000) (j : Fin 256) (l : Fin 10000) : ridx_main_v4 (ix2 r j) l = ix2 l j :=
  funext fun a => Fin.ext (by match a with | ⟨0, _⟩ => rfl | ⟨1, _⟩ => rfl)

theorem lidx_v7 (r : Fin 10000) (j k : Fin 256) : lidx_main_v7 (ix2 r j) k = ix2 r k :=
  funext fun a => Fin.ext (by match a with | ⟨0, _⟩ => rfl | ⟨1, _⟩ => rfl)

theorem ridx_v7 (r : Fin 10000) (j k : Fin 256) : ridx_main_v7 (ix2 r j) k = ix2 k j :=
  funext fun a => Fin.ext (by match a with | ⟨0, _⟩ => rfl | ⟨1, _⟩ => rfl)

theorem lidx_v11 (r : Fin 10000) (j : Fin 256) (l : Fin 10000) : lidx_main_v11 (ix2 r j) l = ix2 r l :=
  funext fun a => Fin.ext (by match a with | ⟨0, _⟩ => rfl | ⟨1, _⟩ => rfl)

theorem ridx_v11 (r : Fin 10000) (j : Fin 256) (l : Fin 10000) : ridx_main_v11 (ix2 r j) l = ix2 l j :=
  funext fun a => Fin.ext (by match a with | ⟨0, _⟩ => rfl | ⟨1, _⟩ => rfl)

theorem bias_idx1 (r : Fin 10000) (j : Fin 256) : idx_main_v1 (idx_main_v2 (ix2 r j)) = ix1 j :=
  funext fun a => Fin.ext (by match a with | ⟨0, _⟩ => rfl)

theorem bias_idx2 (r : Fin 10000) (j : Fin 256) : idx_main_v8 (idx_main_v9 (ix2 r j)) = ix1 j :=
  funext fun a => Fin.ext (by match a with | ⟨0, _⟩ => rfl)

/-! ## The stages, one named intermediate at a time -/

/-- The first bias, stretched over the rows, is the bias at the column. -/
theorem bias1_at (x3 : (⟨S256, .f32⟩ : BufTy).Contents (Elt Ideal)) (r : Fin 10000) (j : Fin 256) :
    val_main_v2 (F := Ideal) x3 (ix2 r j) = x3 (ix1 j) := by
  rw [val_main_v2_apply, val_main_v1_apply, bias_idx1]

/-- The second bias, stretched over the rows, is the bias at the column. -/
theorem bias2_at (x5 : (⟨S256, .f32⟩ : BufTy).Contents (Elt Ideal)) (r : Fin 10000) (j : Fin 256) :
    val_main_v9 (F := Ideal) x5 (ix2 r j) = x5 (ix1 j) := by
  rw [val_main_v9_apply, val_main_v8_apply, bias_idx2]

/-- The clamp's other operand is the zero word everywhere. -/
theorem zero1_at (r : Fin 10000) (j : Fin 256) :
    val_main_v5 (F := Ideal) (ix2 r j) = Cert.Spec.zero := by
  rw [val_main_v5_apply, val_main_cst_apply]; rfl

theorem zero2_at (r : Fin 10000) (j : Fin 256) :
    val_main_v12 (F := Ideal) (ix2 r j) = Cert.Spec.zero := by
  rw [val_main_v12_apply, val_main_cst_0_apply]; rfl

/-- The hidden activations: features against the first weights, plus the first bias. -/
theorem hid_at (x0 : (⟨S10000x256, .f32⟩ : BufTy).Contents (Elt Ideal)) (x2 : (⟨S256x256, .f32⟩ : BufTy).Contents (Elt Ideal))
    (x3 : (⟨S256, .f32⟩ : BufTy).Contents (Elt Ideal)) (r : Fin 10000) (j : Fin 256) :
    val_main_v3 (F := Ideal) x0 x2 x3 (ix2 r j) = Cert.Spec.hid x0 x2 x3 r j := by
  rw [val_main_v3_apply, val_main_v0_apply, bias1_at, Ideal.addf_def]
  unfold Cert.Spec.hid Cert.Spec.dense
  simp only [lidx_v0, ridx_v0]

/-- The first aggregation over the graph, clamped at zero. -/
theorem act_at (x0 : (⟨S10000x256, .f32⟩ : BufTy).Contents (Elt Ideal)) (x1 : (⟨S10000x10000, .f32⟩ : BufTy).Contents (Elt Ideal))
    (x2 : (⟨S256x256, .f32⟩ : BufTy).Contents (Elt Ideal)) (x3 : (⟨S256, .f32⟩ : BufTy).Contents (Elt Ideal))
    (r : Fin 10000) (j : Fin 256) :
    val_main_v6 (F := Ideal) x0 x1 x2 x3 (ix2 r j) = Cert.Spec.agg x1 (Cert.Spec.hid x0 x2 x3) r j := by
  rw [val_main_v6_apply, val_main_v4_apply, zero1_at, Ideal.maximumf_def]
  unfold Cert.Spec.agg
  simp only [lidx_v4, ridx_v4, hid_at]

/-- The first layer's result: the clamped aggregation against the second weights, plus the second bias. -/
theorem lin_at (x0 : (⟨S10000x256, .f32⟩ : BufTy).Contents (Elt Ideal)) (x1 : (⟨S10000x10000, .f32⟩ : BufTy).Contents (Elt Ideal))
    (x2 : (⟨S256x256, .f32⟩ : BufTy).Contents (Elt Ideal)) (x3 : (⟨S256, .f32⟩ : BufTy).Contents (Elt Ideal))
    (x4 : (⟨S256x256, .f32⟩ : BufTy).Contents (Elt Ideal)) (x5 : (⟨S256, .f32⟩ : BufTy).Contents (Elt Ideal))
    (r : Fin 10000) (j : Fin 256) :
    val_main_v10 (F := Ideal) x0 x1 x2 x3 x4 x5 (ix2 r j) = Cert.Spec.lin x0 x1 x2 x3 x4 x5 r j := by
  rw [val_main_v10_apply, val_main_v7_apply, bias2_at, Ideal.addf_def]
  unfold Cert.Spec.lin Cert.Spec.dense
  simp only [lidx_v7, ridx_v7, act_at]

/-- The second aggregation over the graph, clamped at zero: the result. -/
theorem out_at (x0 : (⟨S10000x256, .f32⟩ : BufTy).Contents (Elt Ideal)) (x1 : (⟨S10000x10000, .f32⟩ : BufTy).Contents (Elt Ideal))
    (x2 : (⟨S256x256, .f32⟩ : BufTy).Contents (Elt Ideal)) (x3 : (⟨S256, .f32⟩ : BufTy).Contents (Elt Ideal))
    (x4 : (⟨S256x256, .f32⟩ : BufTy).Contents (Elt Ideal)) (x5 : (⟨S256, .f32⟩ : BufTy).Contents (Elt Ideal))
    (r : Fin 10000) (j : Fin 256) :
    val_main_v13 (F := Ideal) x0 x1 x2 x3 x4 x5 (ix2 r j) = Cert.Spec.outAt x0 x1 x2 x3 x4 x5 r j := by
  rw [val_main_v13_apply, val_main_v11_apply, zero2_at, Ideal.maximumf_def]
  unfold Cert.Spec.outAt Cert.Spec.agg
  simp only [lidx_v11, ridx_v11, lin_at]

/-- The reference computes the specification, index by index. -/
theorem ref_eq (x0 : (⟨Cert.ReferenceIdeal.S10000x256, .f32⟩ : BufTy).Contents (Elt Ideal)) (x1 : (⟨Cert.ReferenceIdeal.S10000x10000, .f32⟩ : BufTy).Contents (Elt Ideal))
    (x2 : (⟨Cert.ReferenceIdeal.S256x256, .f32⟩ : BufTy).Contents (Elt Ideal)) (x3 : (⟨Cert.ReferenceIdeal.S256, .f32⟩ : BufTy).Contents (Elt Ideal))
    (x4 : (⟨Cert.ReferenceIdeal.S256x256, .f32⟩ : BufTy).Contents (Elt Ideal)) (x5 : (⟨Cert.ReferenceIdeal.S256, .f32⟩ : BufTy).Contents (Elt Ideal)) :
    Cert.ReferenceIdeal.Read.val_main_v13 (F := Ideal) x0 x1 x2 x3 x4 x5 = Cert.Spec.out x0 x1 x2 x3 x4 x5 := by
  funext i
  obtain ⟨r, j, rfl⟩ : ∃ (r : Fin 10000) (j : Fin 256), i = ix2 r j := ⟨i 0, i 1, eq_ix2 i⟩
  rw [out_at, Cert.Spec.out_ix2]

end Cert.RefValue

end
-- ==== Proof.lean ====
/-
  The certificate of a two-layer graph convolution kernel against its reference.

  The kernel streams a dense 10000 × 10000 adjacency matrix through two pallas_calls in 25 bands of 400 rows: the first
  computes the hidden activations `x · W1 + b1` once, keeps them in a scratch buffer, and emits per band
  `relu(adj · hid) · W2 + b2`; the second emits per band `relu(adj · ·)` of the first's whole result. The reference is
  the same four stages as whole-array host operations. On the extended reals both are the one function
  `Cert.Spec.out` of the arguments: every matrix product is the same finite sum of products on both sides, and the only
  literal is the zero both clamp against, so no law needs the inputs to be finite.

  The frames: the two kernel programs run as two reshapes on the host and two pipelined regions, each region's body
  certified per grid point (the first region's invariant carries the scratch buffer at the hidden activations from the
  first point on); the reference's frame is its run with the result dropped. The idealization rewrote no operation,
  so there is nothing to preserve.
-/
import proofs.«166435_g12077448036904_cont_main3_85_3_alg».proof.Defs
import proofs.«166435_g12077448036904_cont_main3_85_3_alg».proof.Proof.Gen.Kernel
import proofs.«166435_g12077448036904_cont_main3_85_3_alg».proof.Proof.Gen.KernelIdeal
import proofs.«166435_g12077448036904_cont_main3_85_3_alg».proof.Proof.Gen.ReferenceIdeal
import proofs.«166435_g12077448036904_cont_main3_85_3_alg».proof.Proof.Gen.ReferenceIdeal.Run
import proofs.«166435_g12077448036904_cont_main3_85_3_alg».proof.Proof.Gen.ReferenceIdeal.Read
import proofs.«166435_g12077448036904_cont_main3_85_3_alg».proof.Proof.Gen.Pre_finite_inputs
import proofs.«166435_g12077448036904_cont_main3_85_3_alg».proof.Proof.K.Run
import proofs.«166435_g12077448036904_cont_main3_85_3_alg».proof.Proof.KI.Run
import proofs.«166435_g12077448036904_cont_main3_85_3_alg».proof.Proof.KI.Value
import proofs.«166435_g12077448036904_cont_main3_85_3_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs to the end, faults nowhere and leaves its arguments as launched. -/
theorem frame_k : Cert.frame_Kernel := fun m ρ _ => Cert.Kernel.Hand.frame m ρ

/-- So does the idealized kernel. -/
theorem frame_ki : Cert.frame_KernelIdeal := fun m ρ _ => Cert.KernelIdeal.Hand.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Run from memories that agree on the arguments, both idealized programs end with the specification's function of
    the arguments in their result arrays, and with the arguments unchanged. -/
theorem algebraic : Cert.algebraic_KernelIdeal_ReferenceIdeal := by
  intro m ρ m' ρ' _ hagree
  refine ⟨fun c => Cert.Spec.out
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.Hand.result_eq m c), (h c).2⟩)
      (Cert.KernelIdeal.Hand.run_main (F := Ideal) m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v13_eq, Cert.RefValue.ref_eq,
      (hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
